-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_

variable [Facts]

def fn_part4 {F : FTy → Type} [FloatOps F] (main_arg15 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg12 : FVec F S128x128 .f32) (main_arg13 : FVec F S128 .f32) (main_arg14 : FVec F S128 .f32) (main_arg15 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x128 .f32 := Host.absf main_arg10
  let main_cst_16 : FVec F S_ .f32 := constant S_ .f32 0x7F800000#32
  let main_v45 : FVec F S384x128 .f32 := broadcastInDim S384x128 ![] bcast_S_S384x128 main_cst_16
  let main_v46 : IVec S384x128 1 := cmpf .olt main_v44 main_v45
  let main_c_17 : IVec S_ 1 := constantI S_ 1 1#1
  let main_v47 : IVec S_ 1 := (fun x v => Host.reduce IntOp.andi x v reducesTo_S384x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S800000x128 .f32) (main_arg3 : FVec F S50000x128 .f32) (main_arg4 : FVec F S256x128 .f32) (main_arg5 : FVec F S128 .f32) (main_arg6 : FVec F S128x128 .f32) (main_arg7 : FVec F S128 .f32) (main_arg8 : FVec F S128 .f32) (main_arg9 : FVec F S128 .f32) (main_arg10 : FVec F S384x128 .f32) (main_arg11 : FVec F S128 .f32) (main_arg12 : FVec F S128x128 .f32) (main_arg13 : FVec F S128 .f32) (main_arg14 : FVec F S128 .f32) (main_arg15 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S16000x128 : Shape := ⟨2, ![16000, 128]⟩
abbrev S16000 : Shape := ⟨1, ![16000]⟩
abbrev S16000x1 : Shape := ⟨2, ![16000, 1]⟩
abbrev S50000 : Shape := ⟨1, ![50000]⟩
abbrev S50000x1 : Shape := ⟨2, ![50000, 1]⟩
abbrev S5000x128 : Shape := ⟨2, ![5000, 128]⟩
abbrev S5000 : Shape := ⟨1, ![5000]⟩
abbrev S5000x1 : Shape := ⟨2, ![5000, 1]⟩

abbrev nBuf : Space → Nat
  | .hbm => 70
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S50000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S50000x128, .bf16⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S800000x128, .bf16⟩
  | .hbm, ⟨31, _⟩ => ⟨S128x128, .f32⟩
  | .hbm, ⟨32, _⟩ => ⟨S128x128, .bf16⟩
  | .hbm, ⟨33, _⟩ => ⟨S128x128, .f32⟩
  | .hbm, ⟨34, _⟩ => ⟨S128x128, .bf16⟩
  | .hbm, ⟨35, _⟩ => ⟨S128x128, .bf16⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S800000x1, .i32⟩
  | .hbm, ⟨50, _⟩ => ⟨S50000, .f32⟩
  | .hbm, ⟨51, _⟩ => ⟨S_, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S128x128, .f32⟩
  | .hbm, ⟨59, _⟩ => ⟨S128x128, .bf16⟩
  | .hbm, ⟨60, _⟩ => ⟨S128x128, .f32⟩
  | .hbm, ⟨61, _⟩ => ⟨S128x128, .bf16⟩
  | .hbm, ⟨62, _⟩ => ⟨S128x128, .f32⟩
  | .hbm, ⟨63, _⟩ => ⟨S128x128, .bf16⟩
  | .hbm, ⟨64, _⟩ => ⟨S128x128, .bf16⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S50000x128, .f32⟩
  | .local _ .vmem, ⟨0, _⟩ => ⟨S16000x128, .bf16⟩
  | .local _ .vmem, ⟨1, _⟩ => ⟨S16000x128, .bf16⟩
  | .local _ .vmem, ⟨2, _⟩ => ⟨S16000x128, .bf16⟩
  | .local _ .vmem, ⟨3, _⟩ => ⟨S16000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S16000x128, .f32⟩
  | .local _ .vmem, ⟨12, _⟩ => ⟨S16000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .bf16⟩
  | .local _ .vmem, ⟨20, _⟩ => ⟨S128x128, .bf16⟩
  | .local _ .vmem, ⟨21, _⟩ => ⟨S128x128, .bf16⟩
  | .local _ .vmem, ⟨22, _⟩ => ⟨S1x128, .f32⟩
  | .local _ .vmem, ⟨23, _⟩ => ⟨S128x128, .bf16⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_1 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_call0_v0 : Ref sig .tc := ⟨.hbm, 52, rfl⟩
abbrev main_call0_v1 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg11_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S256x128_S128x128_0_0 : S256x128.Slices ![0, 0] S128x128
  slices_S256x128_S128x128_128_0 : S256x128.Slices ![128, 0] S128x128
  shapeCasts_S128_S1x128 : S128.ShapeCasts S1x128
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  reduces_S16000x128_S16000 : S16000x128.Reduces [1] S16000
  shapeCasts_S16000_S16000x1 : S16000.ShapeCasts S16000x1
  broadcasts_S16000x1_S16000x128 : S16000x1.Broadcasts S16000x128
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S800000x1_S800000x128_1_0_n_n_0_1_1128_wf : GatherDims.WF S50000x128 S800000x1 S800000x128 [1] [0] [] [0] [] 1 ![1, 128]
  dot_S16000x128_S128x128_S16000x128_1_0_0_1_n_n_wf : DotDims.WF S16000x128 S128x128 S16000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S800000x128.size a
  hwx0_0 : ∀ i : grid0.Coords, EltTy.bits .bf16 = 32 ∨ (Rect.block (s := S800000x128) S16000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x128.size a ≤ S800000x128.size a
  hwx0_1 : ∀ i : grid0.Coords, EltTy.bits .bf16 = 32 ∨ (Rect.block (s := S800000x128) S16000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x128.size a ≤ S800000x128.size a
  hwx0_9 : ∀ i : grid0.Coords, EltTy.bits .f32 = 32 ∨ (Rect.block (s := S800000x128) S16000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S16000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S16000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v40) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v43) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v44) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S1x128 : Shape := ⟨2, ![1, 128]⟩
abbrev S50000 : Shape := ⟨1, ![50000]⟩
abbrev S50000x1 : Shape := ⟨2, ![50000, 1]⟩
abbrev S50000x384 : Shape := ⟨2, ![50000, 384]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S50000x128, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S384x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .f32⟩
  | .hbm, ⟨29, _⟩ => ⟨S800000x256, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S1x128, .f32⟩
  | .hbm, ⟨39, _⟩ => ⟨S800000x128, .f32⟩
  | .hbm, ⟨40, _⟩ => ⟨S800000x128, .f32⟩
  | .hbm, ⟨41, _⟩ => ⟨S_, .f32⟩
  | .hbm, ⟨42, _⟩ => ⟨S800000, .f32⟩
  | .hbm, ⟨43, _⟩ => ⟨S800000x1, .f32⟩
  | .hbm, ⟨44, _⟩ => ⟨S_, .f32⟩
  | .hbm, ⟨45, _⟩ => ⟨S800000x1, .f32⟩
  | .hbm, ⟨46, _⟩ => ⟨S800000x1, .f32⟩
  | .hbm, ⟨47, _⟩ => ⟨S800000x128, .f32⟩
  | .hbm, ⟨48, _⟩ => ⟨S800000x128, .f32⟩
  | .hbm, ⟨49, _⟩ => ⟨S800000x128, .f32⟩
  | .hbm, ⟨50, _⟩ => ⟨S_, .f32⟩
  | .hbm, ⟨51, _⟩ => ⟨S800000, .f32⟩
  | .hbm, ⟨52, _⟩ => ⟨S800000x1, .f32⟩
  | .hbm, ⟨53, _⟩ => ⟨S_, .f32⟩
  | .hbm, ⟨54, _⟩ => ⟨S800000x1, .f32⟩
  | .hbm, ⟨55, _⟩ => ⟨S800000x1, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S800000x1, .f32⟩
  | .hbm, ⟨60, _⟩ => ⟨S800000x1, .f32⟩
  | .hbm, ⟨61, _⟩ => ⟨S800000x1, .f32⟩
  | .hbm, ⟨62, _⟩ => ⟨S800000x128, .f32⟩
  | .hbm, ⟨63, _⟩ => ⟨S800000x128, .f32⟩
  | .hbm, ⟨64, _⟩ => ⟨S1x128, .f32⟩
  | .hbm, ⟨65, _⟩ => ⟨S800000x128, .f32⟩
  | .hbm, ⟨66, _⟩ => ⟨S800000x128, .f32⟩
  | .hbm, ⟨67, _⟩ => ⟨S1x128, .f32⟩
  | .hbm, ⟨68, _⟩ => ⟨S800000x128, .f32⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S_, .f32⟩
  | .hbm, ⟨75, _⟩ => ⟨S800000, .f32⟩
  | .hbm, ⟨76, _⟩ => ⟨S_, .f32⟩
  | .hbm, ⟨77, _⟩ => ⟨S50000, .f32⟩
  | .hbm, ⟨78, _⟩ => ⟨S800000x1, .i32⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x384, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000, .f32⟩
  | .hbm, ⟨101, _⟩ => ⟨S50000x1, .f32⟩
  | .hbm, ⟨102, _⟩ => ⟨S_, .f32⟩
  | .hbm, ⟨103, _⟩ => ⟨S50000x1, .f32⟩
  | .hbm, ⟨104, _⟩ => ⟨S50000x1, .f32⟩
  | .hbm, ⟨105, _⟩ => ⟨S50000x128, .f32⟩
  | .hbm, ⟨106, _⟩ => ⟨S50000x128, .f32⟩
  | .hbm, ⟨107, _⟩ => ⟨S50000x128, .f32⟩
  | .hbm, ⟨108, _⟩ => ⟨S_, .f32⟩
  | .hbm, ⟨109, _⟩ => ⟨S50000, .f32⟩
  | .hbm, ⟨110, _⟩ => ⟨S50000x1, .f32⟩
  | .hbm, ⟨111, _⟩ => ⟨S_, .f32⟩
  | .hbm, ⟨112, _⟩ => ⟨S50000x1, .f32⟩
  | .hbm, ⟨113, _⟩ => ⟨S50000x1, .f32⟩
  | .hbm, ⟨114, _⟩ => ⟨S50000x128, .f32⟩
  | .hbm, ⟨115, _⟩ => ⟨S50000x128, .f32⟩
  | .hbm, ⟨116, _⟩ => ⟨S_, .f32⟩
  | .hbm, ⟨117, _⟩ => ⟨S50000x1, .f32⟩
  | .hbm, ⟨118, _⟩ => ⟨S50000x1, .f32⟩
  | .hbm, ⟨119, _⟩ => ⟨S50000x1, .f32⟩
  | .hbm, ⟨120, _⟩ => ⟨S50000x128, .f32⟩
  | .hbm, ⟨121, _⟩ => ⟨S50000x128, .f32⟩
  | .hbm, ⟨122, _⟩ => ⟨S1x128, .f32⟩
  | .hbm, ⟨123, _⟩ => ⟨S50000x128, .f32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call0_cst : Ref sig .tc := ⟨.hbm, 34, rfl⟩
abbrev main_call0_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_8 : Ref sig .tc := ⟨.hbm, 80, rfl⟩
abbrev main_call1_v0 : Ref sig .tc := ⟨.hbm, 81, rfl⟩
abbrev main_call1_v1 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call2_cst : Ref sig .tc := ⟨.hbm, 92, rfl⟩
abbrev main_call2_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_9 : Ref sig .tc := ⟨.hbm, 99, rfl⟩
abbrev main_v66 : Ref sig .tc := ⟨.hbm, 100, rfl⟩
abbrev main_v67 : Ref sig .tc := ⟨.hbm, 101, rfl⟩
abbrev main_cst_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefFold.lean ====
/-
  The reference's result buffer, read back over its stages.

  The reference is a straight line of host operations. The contents of its result buffer after the
  whole line, from any contents before it, is the fold of the operations' results; read at the
  result buffer that fold is the last stage `val_main_v89` — the composition of the operations'
  functions in program order — of the contents at the sixteen argument buffers.
-/
import proofs.«103027_j21655225106535_1_alg».proof.Proof.RefOps
import proofs.«103027_j21655225106535_1_alg».proof.Proof.RefRead

noncomputable section

namespace Cert.ReferenceIdeal.RefFold

open Cert.ReferenceIdeal Cert.ReferenceIdeal.Gen Idealize.ShloMosaic Idealize.ShloMosaic.TcCoe Idealize.SL.Sem
open Idealize.ShloMosaic.StableHlo Cert.ReferenceIdeal.RunOps

variable {F : FTy → Type} [FloatOps F]

/-- No operation of the reference allocates a buffer. -/
theorem ops_fresh : (ops : List (HloOp τ sig (Elt F))).Forall fun op => op.fresh = ∅ := by
  simp only [List.Forall]; repeat' constructor

set_option maxRecDepth 8192 in
set_option maxHeartbeats 16000000 in
/-- The result buffer after the operations, from any contents `V`: the last stage of the contents
    at the sixteen argument buffers. -/
theorem after_result (V : Valuation τ sig (Elt F)) :
    after ops V (Proc.devRef .tc main_v89)
      = Cert.ReferenceIdeal.ReadP.val_main_v89 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  after_results_simp <;> rfl

end Cert.ReferenceIdeal.RefFold

end
-- ==== Proof.RefRun.lean ====
/-
  The reference's run.

  Every weakly fair execution of the straight-line reference ends with each buffer at the fold of
  the operations' results over the launch contents. At the result buffer that is the last stage of
  the argument arrays (RefFold.lean); at an argument buffer it is the launch contents, because no
  operation writes an argument: each operation writes its one result buffer, which is another
  reference.
-/
import proofs.«103027_j21655225106535_1_alg».proof.Proof.RefFold

noncomputable section

namespace Cert.ReferenceIdeal.RefRun

open Cert.ReferenceIdeal Cert.ReferenceIdeal.Gen Idealize.ShloMosaic Idealize.ShloMosaic.TcCoe Idealize.SL.Sem
open Idealize.ShloMosaic.StableHlo Cert.ReferenceIdeal.RunOps Cert.ReferenceIdeal.RefFold

variable {F : FTy → Type} [FloatOps F]

/-- A buffer no operation writes keeps its contents through the whole line. -/
theorem after_kept (V : Valuation τ sig (Elt F)) (r : Ref sig .tc)
    (h : ∀ op ∈ (ops : List (HloOp τ sig (Elt F))), (Proc.devRef .tc r : DevRef τ sig) ∉ op.writes) :
    after ops V (Proc.devRef .tc r) = V (Proc.devRef .tc r) :=
  after_of_forall_not_mem _ _ h

/-- "No operation of the line writes this reference": each operation writes its one result buffer,
    and that buffer is another reference (decided). -/
local macro "not_written" : tactic =>
  `(tactic| (refine List.forall_iff_forall_mem.mp ?_
             simp only [ops, List.Forall, nullary_writes, unary_writes, binary_writes, ternary_writes,
               quaternary_writes, reshape_writes, binaryIndexed_writes, nary_writes, unaryIndexed_writes,
               Finset.mem_singleton]
             repeat' apply And.intro
             all_goals exact devRef_ne_of_ne (by decide)))

set_option maxRecDepth 8192 in
theorem kept_arg0 : ∀ op ∈ (ops : List (HloOp τ sig (Elt F))), (Proc.devRef .tc main_arg0 : DevRef τ sig) ∉ op.writes := by
  not_written
set_option maxRecDepth 8192 in
theorem kept_arg1 : ∀ op ∈ (ops : List (HloOp τ sig (Elt F))), (Proc.devRef .tc main_arg1 : DevRef τ sig) ∉ op.writes := by
  not_written
set_option maxRecDepth 8192 in
theorem kept_arg2 : ∀ op ∈ (ops : List (HloOp τ sig (Elt F))), (Proc.devRef .tc main_arg2 : DevRef τ sig) ∉ op.writes := by
  not_written
set_option maxRecDepth 8192 in
theorem kept_arg3 : ∀ op ∈ (ops : List (HloOp τ sig (Elt F))), (Proc.devRef .tc main_arg3 : DevRef τ sig) ∉ op.writes := by
  not_written
set_option maxRecDepth 8192 in
theorem kept_arg4 : ∀ op ∈ (ops : List (HloOp τ sig (Elt F))), (Proc.devRef .tc main_arg4 : DevRef τ sig) ∉ op.writes := by
  not_written
set_option maxRecDepth 8192 in
theorem kept_arg5 : ∀ op ∈ (ops : List (HloOp τ sig (Elt F))), (Proc.devRef .tc main_arg5 : DevRef τ sig) ∉ op.writes := by
  not_written
set_option maxRecDepth 8192 in
theorem kept_arg6 : ∀ op ∈ (ops : List (HloOp τ sig (Elt F))), (Proc.devRef .tc main_arg6 : DevRef τ sig) ∉ op.writes := by
  not_written
set_option maxRecDepth 8192 in
theorem kept_arg7 : ∀ op ∈ (ops : List (HloOp τ sig (Elt F))), (Proc.devRef .tc main_arg7 : DevRef τ sig) ∉ op.writes := by
  not_written
set_option maxRecDepth 8192 in
theorem kept_arg8 : ∀ op ∈ (ops : List (HloOp τ sig (Elt F))), (Proc.devRef .tc main_arg8 : DevRef τ sig) ∉ op.writes := by
  not_written
set_option maxRecDepth 8192 in
theorem kept_arg9 : ∀ op ∈ (ops : List (HloOp τ sig (Elt F))), (Proc.devRef .tc main_arg9 : DevRef τ sig) ∉ op.writes := by
  not_written
set_option maxRecDepth 8192 in
theorem kept_arg10 : ∀ op ∈ (ops : List (HloOp τ sig (Elt F))), (Proc.devRef .tc main_arg10 : DevRef τ sig) ∉ op.writes := by
  not_written
set_option maxRecDepth 8192 in
theorem kept_arg11 : ∀ op ∈ (ops : List (HloOp τ sig (Elt F))), (Proc.devRef .tc main_arg11 : DevRef τ sig) ∉ op.writes := by
  not_written
set_option maxRecDepth 8192 in
theorem kept_arg12 : ∀ op ∈ (ops : List (HloOp τ sig (Elt F))), (Proc.devRef .tc main_arg12 : DevRef τ sig) ∉ op.writes := by
  not_written
set_option maxRecDepth 8192 in
theorem kept_arg13 : ∀ op ∈ (ops : List (HloOp τ sig (Elt F))), (Proc.devRef .tc main_arg13 : DevRef τ sig) ∉ op.writes := by
  not_written
set_option maxRecDepth 8192 in
theorem kept_arg14 : ∀ op ∈ (ops : List (HloOp τ sig (Elt F))), (Proc.devRef .tc main_arg14 : DevRef τ sig) ∉ op.writes := by
  not_written
set_option maxRecDepth 8192 in
theorem kept_arg15 : ∀ op ∈ (ops : List (HloOp τ sig (Elt F))), (Proc.devRef .tc main_arg15 : DevRef τ sig) ∉ op.writes := by
  not_written

set_option maxRecDepth 8192 in
/-- On every device, from any memory with zero counters: every weakly fair execution of the reference
    terminates with its result at the last stage of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89)
        = Cert.ReferenceIdeal.ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v89).trans (after_result (launchContents m c)),
      (h c main_arg0).trans (after_kept (launchContents m c) main_arg0 kept_arg0),
      (h c main_arg1).trans (after_kept (launchContents m c) main_arg1 kept_arg1),
      (h c main_arg2).trans (after_kept (launchContents m c) main_arg2 kept_arg2),
      (h c main_arg3).trans (after_kept (launchContents m c) main_arg3 kept_arg3),
      (h c main_arg4).trans (after_kept (launchContents m c) main_arg4 kept_arg4),
      (h c main_arg5).trans (after_kept (launchContents m c) main_arg5 kept_arg5),
      (h c main_arg6).trans (after_kept (launchContents m c) main_arg6 kept_arg6),
      (h c main_arg7).trans (after_kept (launchContents m c) main_arg7 kept_arg7),
      (h c main_arg8).trans (after_kept (launchContents m c) main_arg8 kept_arg8),
      (h c main_arg9).trans (after_kept (launchContents m c) main_arg9 kept_arg9),
      (h c main_arg10).trans (after_kept (launchContents m c) main_arg10 kept_arg10),
      (h c main_arg11).trans (after_kept (launchContents m c) main_arg11 kept_arg11),
      (h c main_arg12).trans (after_kept (launchContents m c) main_arg12 kept_arg12),
      (h c main_arg13).trans (after_kept (launchContents m c) main_arg13 kept_arg13),
      (h c main_arg14).trans (after_kept (launchContents m c) main_arg14 kept_arg14),
      (h c main_arg15).trans (after_kept (launchContents m c) main_arg15 kept_arg15)⟩)
    (run_seq scopedRefs_eq scopedSems_eq defs main (fun _ => ops) main_eq (fun _ => ops_sub) m ρ
      (fun _ => List.forall_iff_forall_mem.mp ops_fresh))

end Cert.ReferenceIdeal.RefRun

end
-- ==== Proof.Spec.lean ====
/-
  One message-passing layer over the extended reals: the mathematics both programs compute.

  A ROW is a function `Fin 128 → EReal`. Each of the two stages (per edge, per node) sends a row
  through a first linear layer, the rectifier, a second linear layer and a layer normalisation:

      pre₁ j = (Σₖ inₖ · W₁[k, j]) + b₁ j                 (the input row is 256 or 384 wide)
      pre₂ j = (Σₖ max(pre₁ k, 0) · W₂[k, j]) + b₂ j
      μ      = (Σⱼ pre₂ j) / 128
      σ²     = (Σⱼ (pre₂ j − μ)²) / 128
      out q  = (pre₂ q − μ) · rsqrt(σ² + ε) · g q + β q

  The input row of the first layer is several 128-wide pieces laid end to end. One program lays the
  pieces end to end and contracts once over the long row; the other contracts each piece against
  its own 128 rows of W₁ and adds the partial products. The two agree because a sum over
  `Fin (m + n)` is the sum over the first `m` indices plus the sum over the last `n`: addition on
  the extended reals is commutative and associative, so no finiteness is needed.

  The three float constants (0, 128, ε) are kept as the binary words both programs carry; they are
  never evaluated, only matched.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The word of `0.0`, as the rectifier's other argument. -/
abbrev z32 : EReal := Ideal.ofBits .f32 0x00000000#32
/-- The word of `128.0`, the row length the two means divide by. -/
abbrev c128 : EReal := Ideal.ofBits .f32 0x43000000#32
/-- The word of the normalisation's `ε`. -/
abbrev eps : EReal := Ideal.ofBits .f32 0x3727C5AC#32

/-! ## Rows of arrays -/

/-- Row `r` of an `[n, 128]` array. -/
abbrev row {n : Nat} (X : (⟨2, ![n, 128]⟩ : Shape).Idx → EReal) (r : Fin n) : Fin 128 → EReal :=
  fun k => X (ix2 r k)
/-- A `[K, 128]` weight matrix as a function of row and column. -/
abbrev mat {K : Nat} (W : (⟨2, ![K, 128]⟩ : Shape).Idx → EReal) : Fin K → Fin 128 → EReal :=
  fun k j => W (ix2 k j)
/-- A `[128]` vector as a row. -/
abbrev vec (b : (⟨1, ![128]⟩ : Shape).Idx → EReal) : Fin 128 → EReal := fun j => b (ix1 j)
/-- The one row of a `[1, 128]` array. -/
abbrev row1 (b : (⟨2, ![1, 128]⟩ : Shape).Idx → EReal) : Fin 128 → EReal := fun j => b (ix2 0 j)

/-! ## The stage's tail: rectifier, second layer, normalisation -/

/-- The second linear layer applied to the rectified first-layer row. -/
def hidden (W2 : Fin 128 → Fin 128 → EReal) (b2 : Fin 128 → EReal) (pre1 : Fin 128 → EReal) :
    Fin 128 → EReal :=
  fun j => (∑ k : Fin 128, max (pre1 k) z32 * W2 k j) + b2 j

/-- The mean of a row: its sum over the 128 entries, divided by the word of 128. -/
def mean (v : Fin 128 → EReal) : EReal := Ideal.div (∑ j : Fin 128, v j) c128

/-- Layer normalisation of a row `v` with gain `g` and offset `β`. -/
def layerNorm (g be : Fin 128 → EReal) (v : Fin 128 → EReal) : Fin 128 → EReal :=
  fun q => (v q - mean v) * Ideal.rsqrt (mean (fun j => (v j - mean v) * (v j - mean v)) + eps) * g q + be q

/-- Everything after the first linear layer. -/
def tail (W2 : Fin 128 → Fin 128 → EReal) (b2 g be : Fin 128 → EReal) (pre1 : Fin 128 → EReal) :
    Fin 128 → EReal :=
  layerNorm g be (hidden W2 b2 pre1)

/-! ## The first linear layer, piece by piece and over the joined row -/

/-- The first layer over TWO pieces, each contracted against its own block of weights. -/
def lin2 (a b : Fin 128 → EReal) (Wa Wb : Fin 128 → Fin 128 → EReal) (bias : Fin 128 → EReal) :
    Fin 128 → EReal :=
  fun j => ((∑ k : Fin 128, a k * Wa k j) + (∑ k : Fin 128, b k * Wb k j)) + bias j

/-- The first layer over THREE pieces, each contracted against its own block of weights. -/
def lin3 (a b c : Fin 128 → EReal) (Wa Wb Wc : Fin 128 → Fin 128 → EReal) (bias : Fin 128 → EReal) :
    Fin 128 → EReal :=
  fun j => (((∑ k : Fin 128, a k * Wa k j) + (∑ k : Fin 128, b k * Wb k j)) + (∑ k : Fin 128, c k * Wc k j)) + bias j

/-- The first layer over one joined row of width `K`. -/
def linJoined {K : Nat} (r : Fin K → EReal) (W : Fin K → Fin 128 → EReal) (bias : Fin 128 → EReal) :
    Fin 128 → EReal :=
  fun j => (∑ k : Fin K, r k * W k j) + bias j

/-- Rows `o … o + 127` of a taller weight matrix. -/
abbrev rowsFrom {K : Nat} (o : Nat) (h : o + 128 ≤ K) (W : Fin K → Fin 128 → EReal) :
    Fin 128 → Fin 128 → EReal :=
  fun k j => W ⟨o + k.val, by have := k.isLt; omega⟩ j

/-- A sum over `256` indices is the sum over the first 128 plus the sum over the last 128. -/
theorem sum_256 (f : Fin 256 → EReal) :
    ∑ k : Fin 256, f k
      = (∑ k : Fin 128, f ⟨k.val, by have := k.isLt; omega⟩)
        + (∑ k : Fin 128, f ⟨128 + k.val, by have := k.isLt; omega⟩) := by
  have h := Fin.sum_univ_add (a := 128) (b := 128) (f : Fin (128 + 128) → EReal)
  rw [h]
  rfl

/-- A sum over `384` indices is the sum of the three sums over consecutive runs of 128. -/
theorem sum_384 (f : Fin 384 → EReal) :
    ∑ k : Fin 384, f k
      = ((∑ k : Fin 128, f ⟨k.val, by have := k.isLt; omega⟩)
          + (∑ k : Fin 128, f ⟨128 + k.val, by have := k.isLt; omega⟩))
        + (∑ k : Fin 128, f ⟨256 + k.val, by have := k.isLt; omega⟩) := by
  have h := Fin.sum_univ_add (a := 256) (b := 128) (f : Fin (256 + 128) → EReal)
  rw [h]
  have h2 := sum_256 (fun k : Fin 256 => f (Fin.castAdd 128 k))
  rw [h2]
  rfl

/-- The joined first layer over 256 is the two-piece one, when the joined row is the two pieces
    end to end. -/
theorem linJoined_256 (r : Fin 256 → EReal) (a b : Fin 128 → EReal) (W : Fin 256 → Fin 128 → EReal)
    (bias : Fin 128 → EReal)
    (ha : ∀ k : Fin 128, r ⟨k.val, by have := k.isLt; omega⟩ = a k)
    (hb : ∀ k : Fin 128, r ⟨128 + k.val, by have := k.isLt; omega⟩ = b k) :
    linJoined r W bias = lin2 a b (rowsFrom 0 (by omega) W) (rowsFrom 128 (by omega) W) bias := by
  funext j
  unfold linJoined lin2
  rw [sum_256]
  congr 2
  · refine Finset.sum_congr rfl fun k _ => ?_
    rw [ha k]
    exact congrArg (fun t => a k * W t j) (Fin.ext (by simp))
  · refine Finset.sum_congr rfl fun k _ => ?_
    rw [hb k]

/-- The joined first layer over 384 is the three-piece one, when the joined row is the three
    pieces end to end. -/
theorem linJoined_384 (r : Fin 384 → EReal) (a b c : Fin 128 → EReal) (W : Fin 384 → Fin 128 → EReal)
    (bias : Fin 128 → EReal)
    (ha : ∀ k : Fin 128, r ⟨k.val, by have := k.isLt; omega⟩ = a k)
    (hb : ∀ k : Fin 128, r ⟨128 + k.val, by have := k.isLt; omega⟩ = b k)
    (hc : ∀ k : Fin 128, r ⟨256 + k.val, by have := k.isLt; omega⟩ = c k) :
    linJoined r W bias
      = lin3 a b c (rowsFrom 0 (by omega) W) (rowsFrom 128 (by omega) W) (rowsFrom 256 (by omega) W) bias := by
  funext j
  unfold linJoined lin3
  rw [sum_384]
  congr 2
  · congr 1
    · refine Finset.sum_congr rfl fun k _ => ?_
      rw [ha k]
      exact congrArg (fun t => a k * W t j) (Fin.ext (by simp))
    · refine Finset.sum_congr rfl fun k _ => ?_
      rw [hb k]
  · refine Finset.sum_congr rfl fun k _ => ?_
    rw [hc k]

/-! ## A stage on whole arrays

  Each stage is ROW-WISE: output row `r` depends on row `r` of each input array and on the
  weights. So the same definitions serve an array of 800000 rows and a block of 16000 of them. -/

/-- An `[n, k]` array of extended reals. -/
abbrev A2 (n k : Nat) : Type := (⟨2, ![n, k]⟩ : Shape).Idx → EReal
/-- A `[k]` vector of extended reals. -/
abbrev A1 (k : Nat) : Type := (⟨1, ![k]⟩ : Shape).Idx → EReal

/-- A stage whose first layer contracts TWO input arrays' rows against their own weight blocks;
    biases, gain and offset are `[1, 128]` arrays. -/
def stage2 {n : Nat} (xa xb : A2 n 128) (Wa Wb : A2 128 128) (b1 : A2 1 128) (W2 : A2 128 128)
    (b2 g be : A2 1 128) : A2 n 128 :=
  fun i => tail (mat W2) (row1 b2) (row1 g) (row1 be)
    (lin2 (row xa (i 0)) (row xb (i 0)) (mat Wa) (mat Wb) (row1 b1)) (i 1)

/-- The same with THREE input arrays. -/
def stage3 {n : Nat} (xa xb xc : A2 n 128) (Wa Wb Wc : A2 128 128) (b1 : A2 1 128) (W2 : A2 128 128)
    (b2 g be : A2 1 128) : A2 n 128 :=
  fun i => tail (mat W2) (row1 b2) (row1 g) (row1 be)
    (lin3 (row xa (i 0)) (row xb (i 0)) (row xc (i 0)) (mat Wa) (mat Wb) (mat Wc) (row1 b1)) (i 1)

/-- A stage whose first layer contracts ONE joined input array of width `K` against the whole
    weight matrix; biases, gain and offset are `[128]` vectors. -/
def stageJoined {n K : Nat} (X : A2 n K) (W1 : A2 K 128) (b1 : A1 128) (W2 : A2 128 128)
    (b2 g be : A1 128) : A2 n 128 :=
  fun i => tail (mat W2) (vec b2) (vec g) (vec be)
    (linJoined (fun k : Fin K => X (ix2 (i 0) k)) (fun k j => W1 (ix2 k j)) (vec b1)) (i 1)

end Cert.Spec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KEdge.lean ====
/-
  The edge stage's kernel body, read as mathematics.

  At one grid point the body sees a block of 16000 gathered source rows, the matching block of edge
  features, and the (unblocked) weights. What it stores, entry by entry, is the two-piece stage of
  Spec.lean applied to the block: the first layer is the sum of two 128-long contractions (source
  features against the upper half of the weights, edge features against the lower half), then the
  rectifier, the second layer and the layer normalisation, all row by row.
-/
import proofs.«103027_j21655225106535_1_alg».proof.Proof.Gen.KernelIdeal.Frame
import proofs.«103027_j21655225106535_1_alg».proof.Proof.Spec
import proofs.«103027_j21655225106535_1_alg».proof.Proof.LibDot2
import Idealize.ShloMosaic.Lib.ValueLayout
import Idealize.ShloMosaic.PureOps.Ideal.Laws

noncomputable section

open scoped BigOperators

namespace Cert.KernelIdeal.EdgeBody

open Cert.KernelIdeal Cert.KernelIdeal.Gen Idealize.ShloMosaic Idealize.ShloMosaic.ValueIdx

/-! ## Reading the layout steps at an index -/

/-- The block's rectangle starts at the origin: its two offsets are both zero. -/
theorem zero_offsets : (![0, 0] : Fin 2 → Nat) = fun _ => 0 :=
  funext fun a => match a with | ⟨0, _⟩ => rfl | ⟨1, _⟩ => rfl

/-- A column `[a]` viewed as `[a, 1]` reads, at `(i, u)`, the column at `i`: the row-major position
    of `(i, u)` in `[a, 1]` is `i * 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Reading the two contractions at an index -/

/-- The body's contraction pattern is the plain matrix product's: contract the left operand's
    columns against the right operand's rows. -/
theorem dot_eq_mm : dot_S16000x128_S128x128_S16000x128_1_0_0_1_n_n
    = Dot2.mmDims 16000 128 128 dot_S16000x128_S128x128_S16000x128_1_0_0_1_n_n_wf := rfl

/-- A product of a `[16000, 128]` block by a `[128, 128]` matrix, accumulated into zeros, is at
    `(p, q)` the 128-term sum `∑ k, l[p, k] * r[k, q]`. -/
theorem matmul_read (l : FVec Ideal S16000x128 .bf16) (r : FVec Ideal S128x128 .bf16)
    (p : Fin 16000) (q : Fin 128) :
    matmul dot_S16000x128_S128x128_S16000x128_1_0_0_1_n_n none l r
        (constant (F := Ideal) S16000x128 .f32 0x00000000#32) (ix2 p q)
      = ∑ k : Fin 128, l (ix2 p k) * r (ix2 k q) := by
  rw [dot_eq_mm]
  exact Dot2.matmul_zero_mm_apply _ none l r p q

/-- The sum of a `[16000, 128]` block along its lanes is at `p` the 128-term sum of row `p`. -/
theorem laneSum_read (src : FVec Ideal S16000x128 .f32) (p : Fin 16000)
    (hφ : FKind.Formats .f32) (hacc : (0x00000000#32 : BitVec 32) = FKind.add.neutral .f32 hφ) :
    multiReduction .add [1] S16000 src 0x00000000#32 reduces_S16000x128_S16000 hφ hacc (ix1 p)
      = ∑ k : Fin 128, src (ix2 p k) := by
  refine (Ideal.multiReduction_add_single src 0x00000000#32 reduces_S16000x128_S16000 hφ hacc (ix1 p)).trans ?_
  refine Finset.sum_congr rfl fun k _ => congrArg src ?_
  funext a
  match a with
  | ⟨0, _⟩ => rfl
  | ⟨1, _⟩ => rfl

/-! ## The body's values, entry by entry -/

/-- The second layer's output (before normalisation) at `(p, q)`: the second linear layer applied to
    the rectified two-piece first layer of row `p`, at column `q`. -/
theorem pay2_read (x0 x1 : Vec Ideal S16000x128 .bf16) (x2 x3 : Vec Ideal S128x128 .bf16)
    (x4 : Vec Ideal S1x128 .f32) (x5 : Vec Ideal S128x128 .bf16) (x6 : Vec Ideal S1x128 .f32)
    (p : Fin 16000) (q : Fin 128) :
    k0_pay2 (F := Ideal) x0 x1 x2 x3 x4 x5 x6 (ix2 p q)
      = Cert.Spec.hidden (Cert.Spec.mat x5) (Cert.Spec.row1 x6)
          (Cert.Spec.lin2 (Cert.Spec.row x0 p) (Cert.Spec.row x1 p) (Cert.Spec.mat x2) (Cert.Spec.mat x3)
            (Cert.Spec.row1 x4)) q := by
  unfold k0_pay2 Cert.Spec.hidden Cert.Spec.lin2
  simp only [shapeCast_self]
  rw [addf_apply, matmul_read, broadcastTo_1b_ab_apply]
  refine congrArg₂ (· + ·) (Finset.sum_congr rfl fun k _ => congrArg (· * _) ?_) rfl
  rw [truncf_apply, maximumf_apply, broadcast_apply, addf_apply, addf_apply, matmul_read, matmul_read,
    broadcastTo_1b_ab_apply]
  rfl

/-- The row mean at `(p, u)`: the mean of row `p` of the second layer's output. -/
theorem pay3_read (x0 x1 : Vec Ideal S16000x128 .bf16) (x2 x3 : Vec Ideal S128x128 .bf16)
    (x4 : Vec Ideal S1x128 .f32) (x5 : Vec Ideal S128x128 .bf16) (x6 : Vec Ideal S1x128 .f32)
    (p : Fin 16000) (u : Fin 1) :
    k0_pay3 (F := Ideal) x0 x1 x2 x3 x4 x5 x6 (ix2 p u)
      = Cert.Spec.mean (fun j => k0_pay2 (F := Ideal) x0 x1 x2 x3 x4 x5 x6 (ix2 p j)) := by
  unfold k0_pay3 Cert.Spec.mean
  rw [divf_apply, shapeCast_a_a1_apply, broadcast_apply]
  exact congrArg₂ Ideal.div (laneSum_read _ p _ _) rfl

/-- The mean spread along the lanes at `(p, q)`: still the mean of row `p`. -/
theorem pay5_read (x0 x1 : Vec Ideal S16000x128 .bf16) (x2 x3 : Vec Ideal S128x128 .bf16)
    (x4 : Vec Ideal S1x128 .f32) (x5 : Vec Ideal S128x128 .bf16) (x6 : Vec Ideal S1x128 .f32)
    (p : Fin 16000) (q : Fin 128) :
    k0_pay5 (F := Ideal) x0 x1 x2 x3 x4 x5 x6 (ix2 p q)
      = Cert.Spec.mean (fun j => k0_pay2 (F := Ideal) x0 x1 x2 x3 x4 x5 x6 (ix2 p j)) := by
  unfold k0_pay5
  rw [broadcastTo_a1_ab_apply, pay3_read]

/-- The row variance at `(p, u)`: the mean of the squared deviations of row `p` from its mean. -/
theorem pay4_read (x0 x1 : Vec Ideal S16000x128 .bf16) (x2 x3 : Vec Ideal S128x128 .bf16)
    (x4 : Vec Ideal S1x128 .f32) (x5 : Vec Ideal S128x128 .bf16) (x6 : Vec Ideal S1x128 .f32)
    (p : Fin 16000) (u : Fin 1) :
    k0_pay4 (F := Ideal) x0 x1 x2 x3 x4 x5 x6 (ix2 p u)
      = Cert.Spec.mean (fun j =>
          (k0_pay2 (F := Ideal) x0 x1 x2 x3 x4 x5 x6 (ix2 p j)
              - Cert.Spec.mean (fun j => k0_pay2 (F := Ideal) x0 x1 x2 x3 x4 x5 x6 (ix2 p j)))
            * (k0_pay2 (F := Ideal) x0 x1 x2 x3 x4 x5 x6 (ix2 p j)
              - Cert.Spec.mean (fun j => k0_pay2 (F := Ideal) x0 x1 x2 x3 x4 x5 x6 (ix2 p j)))) := by
  unfold k0_pay4
  rw [divf_apply, shapeCast_a_a1_apply, broadcast_apply]
  refine congrArg₂ Ideal.div ((laneSum_read _ p _ _).trans (Finset.sum_congr rfl fun k _ => ?_)) rfl
  rw [mulf_apply, subf_apply, broadcastTo_a1_ab_apply, pay3_read]

/-- The stored value at `(p, q)` from the three carried arrays: the deviation times the reciprocal
    root of the shifted variance, times the gain, plus the offset. -/
theorem pay1_read (v24 : FVec Ideal S16000x128 .f32) (v35 : FVec Ideal S16000x1 .f32)
    (v36 : FVec Ideal S16000x128 .f32) (g be : Vec Ideal S1x128 .f32) (p : Fin 16000) (q : Fin 128) :
    k0_pay1 (F := Ideal) v24 v35 v36 g be (ix2 p q)
      = (v24 (ix2 p q) - v36 (ix2 p q)) * Ideal.rsqrt (v35 (ix2 p (0 : Fin 1)) + Cert.Spec.eps)
          * g (ix2 (0 : Fin 1) q) + be (ix2 (0 : Fin 1) q) := by
  unfold k0_pay1
  simp only [shapeCast_self]
  rw [addf_apply, mulf_apply, mulf_apply, subf_apply, broadcastTo_1b_ab_apply, broadcastTo_1b_ab_apply,
    broadcastTo_a1_ab_apply]
  rfl

/-- What the edge body leaves in its output block is the two-piece stage of the input blocks. -/
theorem out0_9_eq (x0 x1 : Vec Ideal S16000x128 .bf16) (x2 x3 : Vec Ideal S128x128 .bf16)
    (x4 : Vec Ideal S1x128 .f32) (x5 : Vec Ideal S128x128 .bf16) (x6 x7 x8 : Vec Ideal S1x128 .f32) :
    Gen.out0_9 (F := Ideal) x0 x1 x2 x3 x4 x5 x6 x7 x8
      = Cert.Spec.stage2 (n := 16000) x0 x1 x2 x3 x4 x5 x6 x7 x8 := by
  unfold Gen.out0_9
  rw [View.canon_unit_zero zero_offsets]
  simp only [View.ld_unit_zero (S := S16000x128) zero_offsets, View.ld_unit_zero (S := S128x128) zero_offsets,
    View.ld_unit_zero (S := S1x128) zero_offsets]
  funext i
  obtain ⟨p, q, rfl⟩ : ∃ (p : Fin 16000) (q : Fin 128), i = ix2 p q := ⟨i 0, i 1, eq_ix2 i⟩
  rw [pay1_read, pay5_read, pay4_read]
  -- the stored entry is the normalisation of row `p` of the second layer's output, at column `q`
  show Cert.Spec.layerNorm (Cert.Spec.row1 x7) (Cert.Spec.row1 x8)
      (fun j => k0_pay2 (F := Ideal) x0 x1 x2 x3 x4 x5 x6 (ix2 p j)) q = _
  -- and that row is the second layer of the rectified two-piece first layer of the input rows
  have hrow : (fun j => k0_pay2 (F := Ideal) x0 x1 x2 x3 x4 x5 x6 (ix2 p j))
      = Cert.Spec.hidden (Cert.Spec.mat x5) (Cert.Spec.row1 x6)
          (Cert.Spec.lin2 (Cert.Spec.row x0 p) (Cert.Spec.row x1 p) (Cert.Spec.mat x2) (Cert.Spec.mat x3)
            (Cert.Spec.row1 x4)) :=
    funext fun j => pay2_read x0 x1 x2 x3 x4 x5 x6 p j
  rw [hrow]
  rfl

end Cert.KernelIdeal.EdgeBody

end
-- ==== Proof.KNode.lean ====
/-
  The node stage's kernel body, read as mathematics.

  At one grid point the body sees blocks of 5000 rows of the node features, of the aggregated
  messages and of the global features, and the (unblocked) weights. What it stores, entry by entry,
  is the three-piece stage of Spec.lean applied to the blocks: the first layer is the sum of three
  128-long contractions, each against its own third of the weights, then the rectifier, the second
  layer and the layer normalisation, all row by row.
-/
import proofs.«103027_j21655225106535_1_alg».proof.Proof.Gen.KernelIdeal.Frame
import proofs.«103027_j21655225106535_1_alg».proof.Proof.Spec
import proofs.«103027_j21655225106535_1_alg».proof.Proof.LibDot2
import Idealize.ShloMosaic.Lib.ValueLayout

noncomputable section

open scoped BigOperators

namespace Cert.KernelIdeal.NodeBody

open Cert.KernelIdeal Cert.KernelIdeal.Gen Idealize.ShloMosaic Idealize.ShloMosaic.ValueIdx

/-! ## Small reads at an index -/

/-- The zero offsets of a whole-block access, spelt as the constant function. -/
theorem hz : (![0, 0] : Fin 2 → Nat) = fun _ => 0 := by
  funext a
  match a with
  | ⟨0, _⟩ => rfl
  | ⟨1, _⟩ => rfl

/-- The body's dimension numbers are those of the plain matrix product. -/
theorem dot_eq :
    dot_S5000x128_S128x128_S5000x128_1_0_0_1_n_n
      = Dot2.mmDims 5000 128 128 Facts₀.dot_S5000x128_S128x128_S5000x128_1_0_0_1_n_n_wf := rfl

/-- A product accumulated into zero, at `(p, q)`: the sum over the 128 contracted entries. -/
theorem mm_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  rw [dot_eq]
  exact Dot2.matmul_zero_mm_apply _ none l r p q

/-- The index the lane sum reads at row `p` and lane `k` is `(p, k)`. -/
theorem lift_eq (p : Fin 5000) (k : Fin 128) :
    (Facts₀.reduces_S5000x128_S5000).lift (ix1 p) k = ix2 p k := by
  funext a
  match a with
  | ⟨0, _⟩ => rfl
  | ⟨1, _⟩ => rfl

/-- The sum along the lanes of a block, at row `p`: the sum of the row's 128 entries. -/
theorem rowsum_apply (src : FVec Ideal S5000x128 .f32) (hφ : FTy.f32 = FTy.f32 ∨ FTy.f32 = FTy.bf16)
    (hacc : (0x00000000#32 : BitVec 32) = 0x00000000#32) (p : Fin 5000) :
    multiReduction .add [1] S5000 src 0x00000000#32 Facts₀.reduces_S5000x128_S5000 hφ hacc (ix1 p)
      = ∑ k : Fin 128, src (ix2 p k) :=
  (Ideal.multiReduction_add_single src 0x00000000#32 Facts₀.reduces_S5000x128_S5000 hφ hacc (ix1 p)).trans
    (Finset.sum_congr rfl fun k _ => congrArg src (lift_eq p k))

/-- A column of 5000 values viewed as a `[5000, 1]` array reads, at `(p, u)`, the value at `p`. -/
theorem cast_col {α : Type} (v : S5000.Idx → α) (p : Fin 5000) (u : Fin 1) :
    shapeCast S5000x1 v Facts₀.shapeCasts_S5000_S5000x1 (ix2 p u) = v (ix1 p) :=
  shapeCast_apply v _ _ _ (by
    have hu : u.val = 0 := by omega
    rw [Shape.rowMajor_val_two, Shape.rowMajor_val_one]
    show p.val = p.val * 1 + u.val
    omega)

/-- A `[5000, 1]` column spread over the 128 lanes reads, at `(p, q)`, the column's entry at row `p`. -/
theorem bcast_col {α : Type} (v : S5000x1.Idx → α) (p : Fin 5000) (q : Fin 128) :
    broadcastTo S5000x128 v Facts₀.broadcasts_S5000x1_S5000x128 (ix2 p q) = v (ix2 p (0 : Fin 1)) := by
  refine broadcastTo_apply v _ (ix2 p q) (ix2 p (0 : Fin 1)) fun ax => ?_
  match ax with
  | ⟨0, _⟩ => rfl
  | ⟨1, _⟩ => rfl

/-- A `[1, 128]` row spread over the 5000 rows reads, at `(p, q)`, the row's entry at lane `q`. -/
theorem bcast_row {α : Type} (v : S1x128.Idx → α) (p : Fin 5000) (q : Fin 128) :
    broadcastTo S5000x128 v Facts₀.broadcasts_S1x128_S5000x128 (ix2 p q) = v (ix2 (0 : Fin 1) q) :=
  broadcastTo_1b_ab_apply v _ p q

/-- The reciprocal square root of a vector at an index is that of the entry. -/
theorem rsqrt_apply {s : Shape} {φ : FTy} (a : FVec Ideal s φ) (i : s.Idx) :
    Idealize.ShloMosaic.rsqrt a i = Ideal.rsqrt (a i) := rfl

/-! ## The three payloads at an index -/

/-- The second layer's output at `(p, q)`: the hidden row of the three-piece first layer of row `p`. -/
theorem pay2_apply (v0 v2 v5 : FVec Ideal S5000x128 .f32) (v7 v10 v14 : FVec Ideal S128x128 .bf16)
    (v18 : FVec Ideal S1x128 .f32) (v25 : FVec Ideal S128x128 .bf16) (v28 : FVec Ideal S1x128 .f32)
    (p : Fin 5000) (q : Fin 128) :
    k1_pay2 (F := Ideal) v0 v2 v5 v7 v10 v14 v18 v25 v28 (ix2 p q)
      = Cert.Spec.hidden (Cert.Spec.mat v25) (Cert.Spec.row1 v28)
          (Cert.Spec.lin3 (Cert.Spec.row v0 p) (Cert.Spec.row v2 p) (Cert.Spec.row v5 p)
            (Cert.Spec.mat v7) (Cert.Spec.mat v10) (Cert.Spec.mat v14) (Cert.Spec.row1 v18)) q := by
  unfold k1_pay2 Cert.Spec.hidden Cert.Spec.lin3
  simp only [shapeCast_self, addf_apply, mm_apply, bcast_row, truncf_apply, maximumf_apply, broadcast_apply]
  rfl

/-- The row sums of the second layer's output, as a `[5000, 1]` column, at `(p, u)`. -/
theorem pay3_apply (v0 v2 v5 : FVec Ideal S5000x128 .f32) (v7 v10 v14 : FVec Ideal S128x128 .bf16)
    (v18 : FVec Ideal S1x128 .f32) (v25 : FVec Ideal S128x128 .bf16) (v28 : FVec Ideal S1x128 .f32)
    (p : Fin 5000) (u : Fin 1) :
    k1_pay3 (F := Ideal) v0 v2 v5 v7 v10 v14 v18 v25 v28 (ix2 p u)
      = ∑ j : Fin 128, k1_pay2 (F := Ideal) v0 v2 v5 v7 v10 v14 v18 v25 v28 (ix2 p j) := by
  unfold k1_pay3
  exact (cast_col _ p u).trans (rowsum_apply _ _ _ p)

/-- The normalisation at `(p, q)`, from the second layer's output `v31`, its row sums `v33` and the divisor `c`. -/
theorem pay1_apply (v31 : FVec Ideal S5000x128 .f32) (v33 : FVec Ideal S5000x1 .f32) (c : Ideal .f32)
    (v50 v54 : FVec Ideal S1x128 .f32) (p : Fin 5000) (q : Fin 128) :
    k1_pay1 (F := Ideal) v31 v33 c v50 v54 (ix2 p q)
      = (v31 (ix2 p q) - Ideal.div (v33 (ix2 p (0 : Fin 1))) c)
          * Ideal.rsqrt (Ideal.div (∑ k : Fin 128, (v31 (ix2 p k) - Ideal.div (v33 (ix2 p (0 : Fin 1))) c)
              * (v31 (ix2 p k) - Ideal.div (v33 (ix2 p (0 : Fin 1))) c)) Cert.Spec.c128 + Cert.Spec.eps)
          * v50 (ix2 (0 : Fin 1) q) + v54 (ix2 (0 : Fin 1) q) := by
  unfold k1_pay1
  simp only [shapeCast_self, addf_apply, mulf_apply, subf_apply, divf_apply, bcast_row, bcast_col, broadcast_apply,
    rsqrt_apply, cast_col]
  refine congrArg (fun t : EReal => (v31 (ix2 p q) - Ideal.div (v33 (ix2 p (0 : Fin 1))) c)
      * Ideal.rsqrt (Ideal.div t Cert.Spec.c128 + Cert.Spec.eps) * v50 (ix2 (0 : Fin 1) q) + v54 (ix2 (0 : Fin 1) q)) ?_
  refine (rowsum_apply _ _ _ p).trans ?_
  simp only [mulf_apply, subf_apply, divf_apply, bcast_col, broadcast_apply]

/-- What the node body leaves in its output block is the three-piece stage of the input blocks. -/
theorem out1_11_eq (x0 x1 x2 : Vec Ideal S5000x128 .f32) (x3 x4 x5 : Vec Ideal S128x128 .bf16)
    (x6 : Vec Ideal S1x128 .f32) (x7 : Vec Ideal S128x128 .bf16) (x8 x9 x10 : Vec Ideal S1x128 .f32) :
    Gen.out1_11 (F := Ideal) x0 x1 x2 x3 x4 x5 x6 x7 x8 x9 x10
      = Cert.Spec.stage3 (n := 5000) x0 x1 x2 x3 x4 x5 x6 x7 x8 x9 x10 := by
  unfold Gen.out1_11
  rw [View.canon_unit_zero hz]
  simp only [View.ld_unit_zero (S := S5000x128) hz, View.ld_unit_zero (S := S128x128) hz,
    View.ld_unit_zero (S := S1x128) hz]
  funext i
  obtain ⟨p, q, rfl⟩ : ∃ (p : Fin 5000) (q : Fin 128), i = ix2 p q := ⟨i 0, i 1, eq_ix2 i⟩
  rw [pay1_apply]
  simp only [pay3_apply, pay2_apply]
  unfold Cert.Spec.stage3 Cert.Spec.tail Cert.Spec.layerNorm Cert.Spec.mean
  rfl

end Cert.KernelIdeal.NodeBody

end
-- ==== Proof.KArr.lean ====
/-
  From blocks to arrays: what each region leaves in its output array.

  Each region runs its body once per grid point on block `t` of the row-blocked inputs (rows
  `B·t … B·t + B − 1`, with B = 16000 for the edge stage and 5000 for the node stage) and on the
  whole of each weight array, and writes its result back as block `t` of the output array. The
  stage functions of Spec.lean are row-wise, so the stage of a block of rows is the block of the
  stage of the whole arrays; the blocks tile the output array, so after the last point the array
  holds the stage of the whole input arrays.
-/
import proofs.«103027_j21655225106535_1_alg».proof.Proof.KEdge
import proofs.«103027_j21655225106535_1_alg».proof.Proof.KNode
import Idealize.ShloMosaic.Lib.Pipeline.Value

set_option maxRecDepth 16384

noncomputable section

open scoped BigOperators

namespace Cert.KernelIdeal.Arrays

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The stages are row-wise

  Output row `p` of a stage applied to a block of rows is output row `r` of the stage applied to
  the whole arrays, as soon as row `p` of each blocked input is row `r` of the whole input: the
  first layer reads nothing else of the blocked inputs, and the weights are the same. -/

theorem stage2_rows {n B : Nat} (xa xb : Cert.Spec.A2 n 128) (ya yb : Cert.Spec.A2 B 128)
    (Wa Wb : Cert.Spec.A2 128 128) (b1 : Cert.Spec.A2 1 128) (W2 : Cert.Spec.A2 128 128) (b2 g be : Cert.Spec.A2 1 128)
    (p : Fin B) (r : Fin n) (q : Fin 128)
    (ha : ∀ k : Fin 128, ya (ix2 p k) = xa (ix2 r k)) (hb : ∀ k : Fin 128, yb (ix2 p k) = xb (ix2 r k)) :
    Cert.Spec.stage2 ya yb Wa Wb b1 W2 b2 g be (ix2 p q) = Cert.Spec.stage2 xa xb Wa Wb b1 W2 b2 g be (ix2 r q) := by
  have ea : Cert.Spec.row ya p = Cert.Spec.row xa r := funext ha
  have eb : Cert.Spec.row yb p = Cert.Spec.row xb r := funext hb
  show Cert.Spec.tail _ _ _ _ (Cert.Spec.lin2 (Cert.Spec.row ya p) (Cert.Spec.row yb p) _ _ _) q
     = Cert.Spec.tail _ _ _ _ (Cert.Spec.lin2 (Cert.Spec.row xa r) (Cert.Spec.row xb r) _ _ _) q
  rw [ea, eb]

theorem stage3_rows {n B : Nat} (xa xb xc : Cert.Spec.A2 n 128) (ya yb yc : Cert.Spec.A2 B 128)
    (Wa Wb Wc : Cert.Spec.A2 128 128) (b1 : Cert.Spec.A2 1 128) (W2 : Cert.Spec.A2 128 128) (b2 g be : Cert.Spec.A2 1 128)
    (p : Fin B) (r : Fin n) (q : Fin 128)
    (ha : ∀ k : Fin 128, ya (ix2 p k) = xa (ix2 r k)) (hb : ∀ k : Fin 128, yb (ix2 p k) = xb (ix2 r k))
    (hc : ∀ k : Fin 128, yc (ix2 p k) = xc (ix2 r k)) :
    Cert.Spec.stage3 ya yb yc Wa Wb Wc b1 W2 b2 g be (ix2 p q)
      = Cert.Spec.stage3 xa xb xc Wa Wb Wc b1 W2 b2 g be (ix2 r q) := by
  have ea : Cert.Spec.row ya p = Cert.Spec.row xa r := funext ha
  have eb : Cert.Spec.row yb p = Cert.Spec.row xb r := funext hb
  have ec : Cert.Spec.row yc p = Cert.Spec.row xc r := funext hc
  show Cert.Spec.tail _ _ _ _ (Cert.Spec.lin3 (Cert.Spec.row ya p) (Cert.Spec.row yb p) (Cert.Spec.row yc p) _ _ _ _) q
     = Cert.Spec.tail _ _ _ _ (Cert.Spec.lin3 (Cert.Spec.row xa r) (Cert.Spec.row xb r) (Cert.Spec.row xc r) _ _ _ _) q
  rw [ea, eb, ec]

/-! ## The edge region

  Fifty grid points. Point `t` sees rows `16000·t … 16000·t + 15999` of the two row-blocked inputs
  and the whole of each weight array, and writes rows `16000·t … 16000·t + 15999` of the output. -/

/-- The block index maps of the row-blocked windows (the two inputs and the output): block `(t, 0)`. -/
theorem edge_index : ∀ t : Fin cfg0.N,
    win0_0.index t (0 : Fin 2) = t.val ∧ win0_0.index t (1 : Fin 2) = 0
  ∧ win0_1.index t (0 : Fin 2) = t.val ∧ win0_1.index t (1 : Fin 2) = 0
  ∧ win0_9.index t (0 : Fin 2) = t.val ∧ win0_9.index t (1 : Fin 2) = 0 :=
  (by decide +kernel : ∀ t : Fin grid0.N, _)

/-- The block index maps of the weight windows: block `(0, 0)` at every point. -/
theorem edge_index_whole : ∀ t : Fin cfg0.N,
    (win0_2.index t (0 : Fin 2) = 0 ∧ win0_2.index t (1 : Fin 2) = 0)
  ∧ (win0_3.index t (0 : Fin 2) = 0 ∧ win0_3.index t (1 : Fin 2) = 0)
  ∧ (win0_4.index t (0 : Fin 2) = 0 ∧ win0_4.index t (1 : Fin 2) = 0)
  ∧ (win0_5.index t (0 : Fin 2) = 0 ∧ win0_5.index t (1 : Fin 2) = 0)
  ∧ (win0_6.index t (0 : Fin 2) = 0 ∧ win0_6.index t (1 : Fin 2) = 0)
  ∧ (win0_7.index t (0 : Fin 2) = 0 ∧ win0_7.index t (1 : Fin 2) = 0)
  ∧ (win0_8.index t (0 : Fin 2) = 0 ∧ win0_8.index t (1 : Fin 2) = 0) :=
  (by decide +kernel : ∀ t : Fin grid0.N, _)

/-! A block's coordinate is the block index times the block's extent plus the coordinate inside the
    block: entry `(p, k)` of block `t` of a row-blocked input is entry `(16000·t + p, k)` of the array. -/

theorem edge_w0_block (c : Dev nD) (t : Fin cfg0.N) (p : Fin 16000) (k : Fin 128) (r : Fin 800000)
    (hr : r.val = 16000 * t.val + p.val) :
    (iblk0 (F := Ideal) V c 0 t : Vec Ideal S16000x128 .bf16) (ix2 p k)
      = (V c main_v11 : S800000x128.Idx → Elt Ideal .bf16) (ix2 r k) := by
  have e := edge_index t
  unfold iblk0
  rw [View.read_apply]
  show V c main_v11 _ = V c main_v11 _
  congr 1
  funext a
  apply Fin.ext
  match a with
  | ⟨0, _⟩ => show win0_0.index t (0 : Fin 2) * 16000 + 1 * p.val = r.val; omega
  | ⟨1, _⟩ => show win0_0.index t (1 : Fin 2) * 128 + 1 * k.val = k.val; omega

theorem edge_w1_block (c : Dev nD) (t : Fin cfg0.N) (p : Fin 16000) (k : Fin 128) (r : Fin 800000)
    (hr : r.val = 16000 * t.val + p.val) :
    (iblk0 (F := Ideal) V c 1 t : Vec Ideal S16000x128 .bf16) (ix2 p k)
      = (V c main_v12 : S800000x128.Idx → Elt Ideal .bf16) (ix2 r k) := by
  have e := edge_index t
  unfold iblk0
  rw [View.read_apply]
  show V c main_v12 _ = V c main_v12 _
  congr 1
  funext a
  apply Fin.ext
  match a with
  | ⟨0, _⟩ => show win0_1.index t (0 : Fin 2) * 16000 + 1 * p.val = r.val; omega
  | ⟨1, _⟩ => show win0_1.index t (1 : Fin 2) * 128 + 1 * k.val = k.val; omega

/-! A weight window's one block, at offset `(0, 0)` and of the array's own extents, is the array. -/

theorem edge_w2_block (c : Dev nD) (t : Fin cfg0.N) :
    (iblk0 (F := Ideal) V c 2 t : Vec Ideal S128x128 .bf16) = (V c main_v14 : S128x128.Idx → Elt Ideal .bf16) := by
  obtain ⟨⟨e0, e1⟩, -⟩ := edge_index_whole t
  funext x
  unfold iblk0
  rw [View.read_apply]
  show V c main_v14 _ = V c main_v14 _
  congr 1
  funext a
  apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

theorem edge_w3_block (c : Dev nD) (t : Fin cfg0.N) :
    (iblk0 (F := Ideal) V c 3 t : Vec Ideal S128x128 .bf16) = (V c main_v16 : S128x128.Idx → Elt Ideal .bf16) := by
  obtain ⟨-, ⟨e0, e1⟩, -⟩ := edge_index_whole t
  funext x
  unfold iblk0
  rw [View.read_apply]
  show V c main_v16 _ = V c main_v16 _
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem edge_w4_block (c : Dev nD) (t : Fin cfg0.N) :
    (iblk0 (F := Ideal) V c 4 t : Vec Ideal S1x128 .f32) = (V c main_v18 : S1x128.Idx → Elt Ideal .f32) := by
  obtain ⟨-, -, ⟨e0, e1⟩, -⟩ := edge_index_whole t
  funext x
  unfold iblk0
  rw [View.read_apply]
  show V c main_v18 _ = V c main_v18 _
  congr 1
  funext a
  apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem edge_w5_block (c : Dev nD) (t : Fin cfg0.N) :
    (iblk0 (F := Ideal) V c 5 t : Vec Ideal S128x128 .bf16) = (V c main_v17 : S128x128.Idx → Elt Ideal .bf16) := by
  obtain ⟨-, -, -, ⟨e0, e1⟩, -⟩ := edge_index_whole t
  funext x
  unfold iblk0
  rw [View.read_apply]
  show V c main_v17 _ = V c main_v17 _
  congr 1
  funext a
  apply Fin.ext
  match a with
  | ⟨0, _⟩ => show win0_5.index t (0 : Fin 2) * 128 + 1 * (x 0).val = (x 0).val; omega
  | ⟨1, _⟩ => show win0_5.index t (1 : Fin 2) * 128 + 1 * (x 1).val = (x 1).val; omega

theorem edge_w6_block (c : Dev nD) (t : Fin cfg0.N) :
    (iblk0 (F := Ideal) V c 6 t : Vec Ideal S1x128 .f32) = (V c main_v19 : S1x128.Idx → Elt Ideal .f32) := by
  obtain ⟨-, -, -, -, ⟨e0, e1⟩, -⟩ := edge_index_whole t
  funext x
  unfold iblk0
  rw [View.read_apply]
  show V c main_v19 _ = V c main_v19 _
  congr 1
  funext a
  apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

theorem edge_w7_block (c : Dev nD) (t : Fin cfg0.N) :
    (iblk0 (F := Ideal) V c 7 t : Vec Ideal S1x128 .f32) = (V c main_v20 : S1x128.Idx → Elt Ideal .f32) := by
  obtain ⟨-, -, -, -, -, ⟨e0, e1⟩, -⟩ := edge_index_whole t
  funext x
  unfold iblk0
  rw [View.read_apply]
  show V c main_v20 _ = V c main_v20 _
  congr 1
  funext a
  apply Fin.ext
  match a with
  | ⟨0, _⟩ => show win0_7.index t (0 : Fin 2) * 1 + 1 * (x 0).val = (x 0).val; omega
  | ⟨1, _⟩ => show win0_7.index t (1 : Fin 2) * 128 + 1 * (x 1).val = (x 1).val; omega

theorem edge_w8_block (c : Dev nD) (t : Fin cfg0.N) :
    (iblk0 (F := Ideal) V c 8 t : Vec Ideal S1x128 .f32) = (V c main_v21 : S1x128.Idx → Elt Ideal .f32) := by
  obtain ⟨-, -, -, -, -, -, ⟨e0, e1⟩⟩ := edge_index_whole t
  funext x
  unfold iblk0
  rw [View.read_apply]
  show V c main_v21 _ = V c main_v21 _
  congr 1
  funext a
  apply Fin.ext
  match a with
  | ⟨0, _⟩ => show win0_8.index t (0 : Fin 2) * 1 + 1 * (x 0).val = (x 0).val; omega
  | ⟨1, _⟩ => show win0_8.index t (1 : Fin 2) * 128 + 1 * (x 1).val = (x 1).val; omega

/-- The whole arrays' stage, the function the output array ends holding. -/
abbrev edgeStage (c : Dev nD) : Cert.Spec.A2 800000 128 :=
  Cert.Spec.stage2 (n := 800000) (V c main_v11) (V c main_v12) (V c main_v14) (V c main_v16) (V c main_v18)
    (V c main_v17) (V c main_v19) (V c main_v20) (V c main_v21)

/-- What point `t` writes back is block `t` of the whole arrays' stage: the stage is row-wise, and
    row `p` of an input block is row `16000·t + p` of the input array. -/
theorem edge_flushed (c : Dev nD) (t : Fin cfg0.N) :
    (dat0 (F := Ideal) V c).flushed 9 t = ((cfg0.win 9).blk t).view.read (Elt Ideal) (edgeStage V c) := by
  show (cfg0.win 9).cut (grid0.coords t) ((dat0 (F := Ideal) V c).after 9 t) = _
  rw [after0_9]
  rw [Cert.KernelIdeal.EdgeBody.out0_9_eq (iblk0 V c 0 t) (iblk0 V c 1 t) (iblk0 V c 2 t) (iblk0 V c 3 t)
    (iblk0 V c 4 t) (iblk0 V c 5 t) (iblk0 V c 6 t) (iblk0 V c 7 t) (iblk0 V c 8 t)]
  rw [edge_w2_block V c t, edge_w3_block V c t, edge_w4_block V c t, edge_w5_block V c t, edge_w6_block V c t,
    edge_w7_block V c t, edge_w8_block V c t]
  obtain ⟨-, -, -, -, e4, e5⟩ := edge_index t
  funext j
  have hj0 : (j 0).val < 16000 := (j 0).isLt
  have hj1 : (j 1).val < 128 := (j 1).isLt
  have ht : t.val < 50 := lt_of_lt_of_eq t.isLt N_0
  have hx : (cfg0.win 9).xinj (grid0.coords t) j = ix2 (⟨(j 0).val, hj0⟩ : Fin 16000) (⟨(j 1).val, hj1⟩ : Fin 128) := by
    funext a
    match a with
    | ⟨0, _⟩ => rfl
    | ⟨1, _⟩ => rfl
  have hy : (((cfg0.win 9).blk t).view.emb j : S800000x128.Idx)
      = ix2 (⟨16000 * t.val + (j 0).val, by omega⟩ : Fin 800000) (⟨(j 1).val, hj1⟩ : Fin 128) := by
    funext a
    apply Fin.ext
    match a with
    | ⟨0, _⟩ => show win0_9.index t (0 : Fin 2) * 16000 + 1 * (j 0).val = 16000 * t.val + (j 0).val; omega
    | ⟨1, _⟩ => show win0_9.index t (1 : Fin 2) * 128 + 1 * (j 1).val = (j 1).val; omega
  show Cert.Spec.stage2 (n := 16000) (iblk0 V c 0 t) (iblk0 V c 1 t) (V c main_v14) (V c main_v16) (V c main_v18)
        (V c main_v17) (V c main_v19) (V c main_v20) (V c main_v21) ((cfg0.win 9).xinj (grid0.coords t) j)
     = edgeStage V c (((cfg0.win 9).blk t).view.emb j)
  rw [hx, hy]
  exact stage2_rows _ _ _ _ _ _ _ _ _ _ _ _ _ _
    (fun k => edge_w0_block V c t _ k _ rfl) (fun k => edge_w1_block V c t _ k _ rfl)

/-- An index of the output array is in point `t`'s block iff each coordinate is in the block's range. -/
theorem edge_mem_blk (t : Fin cfg0.N) (i : S800000x128.Idx) :
    i ∈ ((cfg0.win 9).blk t).view.set ↔ ∀ a : Fin 2, win0_9.index t a * S16000x128.size a ≤ (i a).val
      ∧ (i a).val < win0_9.index t a * S16000x128.size a + S16000x128.size a := by
  show i ∈ ((View.whole main_v22).slice (win0_9.rect t)).set ↔ _
  rw [View.set_slice_whole, Rect.mem_set_unit]
  exact Iff.rfl

/-- The blocks tile the output array: row `r` is in the block of point `r / 16000`. -/
theorem edge_cover (i : S800000x128.Idx) :
    ∃ t : Fin cfg0.N, (cfg0.win 9).flush t = true ∧ i ∈ ((cfg0.win 9).blk t).view.set := by
  have hi0 : (i 0).val < 800000 := (i 0).isLt
  have hi1 : (i 1).val < 128 := (i 1).isLt
  have hN : cfg0.N = 50 := N_0
  refine ⟨⟨(i 0).val / 16000, by omega⟩, flush0_9 _, ?_⟩
  rw [edge_mem_blk]
  obtain ⟨-, -, -, -, e4, e5⟩ := edge_index ⟨(i 0).val / 16000, by omega⟩
  intro a
  match a with
  | ⟨0, _⟩ =>
    show win0_9.index ⟨(i 0).val / 16000, _⟩ (0 : Fin 2) * 16000 ≤ (i 0).val
      ∧ (i 0).val < win0_9.index ⟨(i 0).val / 16000, _⟩ (0 : Fin 2) * 16000 + 16000
    rw [e4]
    show (i 0).val / 16000 * 16000 ≤ (i 0).val ∧ (i 0).val < (i 0).val / 16000 * 16000 + 16000
    omega
  | ⟨1, _⟩ =>
    show win0_9.index ⟨(i 0).val / 16000, _⟩ (1 : Fin 2) * 128 ≤ (i 1).val
      ∧ (i 1).val < win0_9.index ⟨(i 0).val / 16000, _⟩ (1 : Fin 2) * 128 + 128
    rw [e5]
    omega

/-- After the edge region its output array holds the two-piece stage of the region's input arrays. -/
theorem edge_array (c : Dev nD) :
    (Gen.dat0 (F := Ideal) V c).arrAt 9 cfg0.N
      = Cert.Spec.stage2 (n := 800000) (V c main_v11) (V c main_v12) (V c main_v14) (V c main_v16) (V c main_v18)
          (V c main_v17) (V c main_v19) (V c main_v20) (V c main_v21) :=
  (dat0 (F := Ideal) V c).arrAt_eq_of_cover 9 (edgeStage V c) (fun t _ => edge_flushed V c t) edge_cover

/-! ## The node region

  Ten grid points. Point `t` sees rows `5000·t … 5000·t + 4999` of the three row-blocked inputs
  and the whole of each weight array, and writes rows `5000·t … 5000·t + 4999` of the output. -/

/-- The block index maps of the row-blocked windows (the three inputs and the output): block `(t, 0)`. -/
theorem node_index : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = t.val ∧ win1_2.index t (1 : Fin 2) = 0
  ∧ win1_11.index t (0 : Fin 2) = t.val ∧ win1_11.index t (1 : Fin 2) = 0 :=
  (by decide +kernel : ∀ t : Fin grid1.N, _)

/-- The block index maps of the weight windows: block `(0, 0)` at every point. -/
theorem node_index_whole : ∀ t : Fin cfg1.N,
    (win1_3.index t (0 : Fin 2) = 0 ∧ win1_3.index t (1 : Fin 2) = 0)
  ∧ (win1_4.index t (0 : Fin 2) = 0 ∧ win1_4.index t (1 : Fin 2) = 0)
  ∧ (win1_5.index t (0 : Fin 2) = 0 ∧ win1_5.index t (1 : Fin 2) = 0)
  ∧ (win1_6.index t (0 : Fin 2) = 0 ∧ win1_6.index t (1 : Fin 2) = 0)
  ∧ (win1_7.index t (0 : Fin 2) = 0 ∧ win1_7.index t (1 : Fin 2) = 0)
  ∧ (win1_8.index t (0 : Fin 2) = 0 ∧ win1_8.index t (1 : Fin 2) = 0)
  ∧ (win1_9.index t (0 : Fin 2) = 0 ∧ win1_9.index t (1 : Fin 2) = 0)
  ∧ (win1_10.index t (0 : Fin 2) = 0 ∧ win1_10.index t (1 : Fin 2) = 0) :=
  (by decide +kernel : ∀ t : Fin grid1.N, _)

/-! Entry `(p, k)` of block `t` of a row-blocked input is entry `(5000·t + p, k)` of the array. -/

theorem node_w0_block (c : Dev nD) (t : Fin cfg1.N) (p : Fin 5000) (k : Fin 128) (r : Fin 50000)
    (hr : r.val = 5000 * t.val + p.val) :
    (iblk1 (F := Ideal) V c 0 t : Vec Ideal S5000x128 .f32) (ix2 p k)
      = (V c main_arg0 : S50000x128.Idx → Elt Ideal .f32) (ix2 r k) := by
  have e := node_index t
  unfold iblk1
  rw [View.read_apply]
  show V c main_arg0 _ = V c main_arg0 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

theorem node_w1_block (c : Dev nD) (t : Fin cfg1.N) (p : Fin 5000) (k : Fin 128) (r : Fin 50000)
    (hr : r.val = 5000 * t.val + p.val) :
    (iblk1 (F := Ideal) V c 1 t : Vec Ideal S5000x128 .f32) (ix2 p k)
      = (V c main_v33 : S50000x128.Idx → Elt Ideal .f32) (ix2 r k) := by
  have e := node_index t
  unfold iblk1
  rw [View.read_apply]
  show V c main_v33 _ = V c main_v33 _
  congr 1
  funext a
  apply Fin.ext
  match a with
  | ⟨0, _⟩ => show win1_1.index t (0 : Fin 2) * 5000 + 1 * p.val = r.val; omega
  | ⟨1, _⟩ => show win1_1.index t (1 : Fin 2) * 128 + 1 * k.val = k.val; omega

theorem node_w2_block (c : Dev nD) (t : Fin cfg1.N) (p : Fin 5000) (k : Fin 128) (r : Fin 50000)
    (hr : r.val = 5000 * t.val + p.val) :
    (iblk1 (F := Ideal) V c 2 t : Vec Ideal S5000x128 .f32) (ix2 p k)
      = (V c main_arg3 : S50000x128.Idx → Elt Ideal .f32) (ix2 r k) := by
  have e := node_index t
  unfold iblk1
  rw [View.read_apply]
  show V c main_arg3 _ = V c main_arg3 _
  congr 1
  funext a
  apply Fin.ext
  match a with
  | ⟨0, _⟩ => show win1_2.index t (0 : Fin 2) * 5000 + 1 * p.val = r.val; omega
  | ⟨1, _⟩ => show win1_2.index t (1 : Fin 2) * 128 + 1 * k.val = k.val; omega

/-! A weight window's one block, at offset `(0, 0)` and of the array's own extents, is the array. -/

theorem node_w3_block (c : Dev nD) (t : Fin cfg1.N) :
    (iblk1 (F := Ideal) V c 3 t : Vec Ideal S128x128 .bf16) = (V c main_v35 : S128x128.Idx → Elt Ideal .bf16) := by
  obtain ⟨⟨e0, e1⟩, -⟩ := node_index_whole t
  funext x
  unfold iblk1
  rw [View.read_apply]
  show V c main_v35 _ = V c main_v35 _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

theorem node_w4_block (c : Dev nD) (t : Fin cfg1.N) :
    (iblk1 (F := Ideal) V c 4 t : Vec Ideal S128x128 .bf16) = (V c main_v37 : S128x128.Idx → Elt Ideal .bf16) := by
  obtain ⟨-, ⟨e0, e1⟩, -⟩ := node_index_whole t
  funext x
  unfold iblk1
  rw [View.read_apply]
  show V c main_v37 _ = V c main_v37 _
  congr 1
  funext a
  apply Fin.ext
  match a with
  | ⟨0, _⟩ => show win1_4.index t (0 : Fin 2) * 128 + 1 * (x 0).val = (x 0).val; omega
  | ⟨1, _⟩ => show win1_4.index t (1 : Fin 2) * 128 + 1 * (x 1).val = (x 1).val; omega

theorem node_w5_block (c : Dev nD) (t : Fin cfg1.N) :
    (iblk1 (F := Ideal) V c 5 t : Vec Ideal S128x128 .bf16) = (V c main_v39 : S128x128.Idx → Elt Ideal .bf16) := by
  obtain ⟨-, -, ⟨e0, e1⟩, -⟩ := node_index_whole t
  funext x
  unfold iblk1
  rw [View.read_apply]
  show V c main_v39 _ = V c main_v39 _
  congr 1
  funext a
  apply Fin.ext
  match a with
  | ⟨0, _⟩ => show win1_5.index t (0 : Fin 2) * 128 + 1 * (x 0).val = (x 0).val; omega
  | ⟨1, _⟩ => show win1_5.index t (1 : Fin 2) * 128 + 1 * (x 1).val = (x 1).val; omega

theorem node_w6_block (c : Dev nD) (t : Fin cfg1.N) :
    (iblk1 (F := Ideal) V c 6 t : Vec Ideal S1x128 .f32) = (V c main_v41 : S1x128.Idx → Elt Ideal .f32) := by
  obtain ⟨-, -, -, ⟨e0, e1⟩, -⟩ := node_index_whole t
  funext x
  unfold iblk1
  rw [View.read_apply]
  show V c main_v41 _ = V c main_v41 _
  congr 1
  funext a
  apply Fin.ext
  match a with
  | ⟨0, _⟩ => show win1_6.index t (0 : Fin 2) * 1 + 1 * (x 0).val = (x 0).val; omega
  | ⟨1, _⟩ => show win1_6.index t (1 : Fin 2) * 128 + 1 * (x 1).val = (x 1).val; omega

theorem node_w7_block (c : Dev nD) (t : Fin cfg1.N) :
    (iblk1 (F := Ideal) V c 7 t : Vec Ideal S128x128 .bf16) = (V c main_v40 : S128x128.Idx → Elt Ideal .bf16) := by
  obtain ⟨-, -, -, -, ⟨e0, e1⟩, -⟩ := node_index_whole t
  funext x
  unfold iblk1
  rw [View.read_apply]
  show V c main_v40 _ = V c main_v40 _
  congr 1
  funext a
  apply Fin.ext
  match a with
  | ⟨0, _⟩ => show win1_7.index t (0 : Fin 2) * 128 + 1 * (x 0).val = (x 0).val; omega
  | ⟨1, _⟩ => show win1_7.index t (1 : Fin 2) * 128 + 1 * (x 1).val = (x 1).val; omega

theorem node_w8_block (c : Dev nD) (t : Fin cfg1.N) :
    (iblk1 (F := Ideal) V c 8 t : Vec Ideal S1x128 .f32) = (V c main_v42 : S1x128.Idx → Elt Ideal .f32) := by
  obtain ⟨-, -, -, -, -, ⟨e0, e1⟩, -⟩ := node_index_whole t
  funext x
  unfold iblk1
  rw [View.read_apply]
  show V c main_v42 _ = V c main_v42 _
  congr 1
  funext a
  apply Fin.ext
  match a with
  | ⟨0, _⟩ => show win1_8.index t (0 : Fin 2) * 1 + 1 * (x 0).val = (x 0).val; omega
  | ⟨1, _⟩ => show win1_8.index t (1 : Fin 2) * 128 + 1 * (x 1).val = (x 1).val; omega

theorem node_w9_block (c : Dev nD) (t : Fin cfg1.N) :
    (iblk1 (F := Ideal) V c 9 t : Vec Ideal S1x128 .f32) = (V c main_v43 : S1x128.Idx → Elt Ideal .f32) := by
  obtain ⟨-, -, -, -, -, -, ⟨e0, e1⟩, -⟩ := node_index_whole t
  funext x
  unfold iblk1
  rw [View.read_apply]
  show V c main_v43 _ = V c main_v43 _
  congr 1
  funext a
  apply Fin.ext
  match a with
  | ⟨0, _⟩ => show win1_9.index t (0 : Fin 2) * 1 + 1 * (x 0).val = (x 0).val; omega
  | ⟨1, _⟩ => show win1_9.index t (1 : Fin 2) * 128 + 1 * (x 1).val = (x 1).val; omega

theorem node_w10_block (c : Dev nD) (t : Fin cfg1.N) :
    (iblk1 (F := Ideal) V c 10 t : Vec Ideal S1x128 .f32) = (V c main_v44 : S1x128.Idx → Elt Ideal .f32) := by
  obtain ⟨-, -, -, -, -, -, -, ⟨e0, e1⟩⟩ := node_index_whole t
  funext x
  unfold iblk1
  rw [View.read_apply]
  show V c main_v44 _ = V c main_v44 _
  congr 1
  funext a
  apply Fin.ext
  match a with
  | ⟨0, _⟩ => show win1_10.index t (0 : Fin 2) * 1 + 1 * (x 0).val = (x 0).val; omega
  | ⟨1, _⟩ => show win1_10.index t (1 : Fin 2) * 128 + 1 * (x 1).val = (x 1).val; omega

/-- The whole arrays' stage, the function the output array ends holding. -/
abbrev nodeStage (c : Dev nD) : Cert.Spec.A2 50000 128 :=
  Cert.Spec.stage3 (n := 50000) (V c main_arg0) (V c main_v33) (V c main_arg3) (V c main_v35) (V c main_v37)
    (V c main_v39) (V c main_v41) (V c main_v40) (V c main_v42) (V c main_v43) (V c main_v44)

/-- What point `t` writes back is block `t` of the whole arrays' stage: the stage is row-wise, and
    row `p` of an input block is row `5000·t + p` of the input array. -/
theorem node_flushed (c : Dev nD) (t : Fin cfg1.N) :
    (dat1 (F := Ideal) V c).flushed 11 t = ((cfg1.win 11).blk t).view.read (Elt Ideal) (nodeStage V c) := by
  show (cfg1.win 11).cut (grid1.coords t) ((dat1 (F := Ideal) V c).after 11 t) = _
  rw [after1_11]
  rw [Cert.KernelIdeal.NodeBody.out1_11_eq (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t)]
  rw [node_w3_block V c t, node_w4_block V c t, node_w5_block V c t, node_w6_block V c t, node_w7_block V c t,
    node_w8_block V c t, node_w9_block V c t, node_w10_block V c t]
  obtain ⟨-, -, -, -, -, -, e6, e7⟩ := node_index t
  funext j
  have hj0 : (j 0).val < 5000 := (j 0).isLt
  have hj1 : (j 1).val < 128 := (j 1).isLt
  have ht : t.val < 10 := lt_of_lt_of_eq t.isLt N_1
  have hx : (cfg1.win 11).xinj (grid1.coords t) j = ix2 (⟨(j 0).val, hj0⟩ : Fin 5000) (⟨(j 1).val, hj1⟩ : Fin 128) := by
    funext a
    match a with
    | ⟨0, _⟩ => rfl
    | ⟨1, _⟩ => rfl
  have hy : (((cfg1.win 11).blk t).view.emb j : S50000x128.Idx)
      = ix2 (⟨5000 * t.val + (j 0).val, by omega⟩ : Fin 50000) (⟨(j 1).val, hj1⟩ : Fin 128) := by
    funext a
    apply Fin.ext
    match a with
    | ⟨0, _⟩ => show win1_11.index t (0 : Fin 2) * 5000 + 1 * (j 0).val = 5000 * t.val + (j 0).val; omega
    | ⟨1, _⟩ => show win1_11.index t (1 : Fin 2) * 128 + 1 * (j 1).val = (j 1).val; omega
  show Cert.Spec.stage3 (n := 5000) (iblk1 V c 0 t) (iblk1 V c 1 t) (iblk1 V c 2 t) (V c main_v35) (V c main_v37)
        (V c main_v39) (V c main_v41) (V c main_v40) (V c main_v42) (V c main_v43) (V c main_v44)
        ((cfg1.win 11).xinj (grid1.coords t) j)
     = nodeStage V c (((cfg1.win 11).blk t).view.emb j)
  rw [hx, hy]
  exact stage3_rows _ _ _ _ _ _ _ _ _ _ _ _ _ _ _ _ _
    (fun k => node_w0_block V c t _ k _ rfl) (fun k => node_w1_block V c t _ k _ rfl)
    (fun k => node_w2_block V c t _ k _ rfl)

/-- An index of the output array is in point `t`'s block iff each coordinate is in the block's range. -/
theorem node_mem_blk (t : Fin cfg1.N) (i : S50000x128.Idx) :
    i ∈ ((cfg1.win 11).blk t).view.set ↔ ∀ a : Fin 2, win1_11.index t a * S5000x128.size a ≤ (i a).val
      ∧ (i a).val < win1_11.index t a * S5000x128.size a + S5000x128.size a := by
  show i ∈ ((View.whole main_v45).slice (win1_11.rect t)).set ↔ _
  rw [View.set_slice_whole, Rect.mem_set_unit]
  exact Iff.rfl

/-- The blocks tile the output array: row `r` is in the block of point `r / 5000`. -/
theorem node_cover (i : S50000x128.Idx) :
    ∃ t : Fin cfg1.N, (cfg1.win 11).flush t = true ∧ i ∈ ((cfg1.win 11).blk t).view.set := by
  have hi0 : (i 0).val < 50000 := (i 0).isLt
  have hi1 : (i 1).val < 128 := (i 1).isLt
  have hN : cfg1.N = 10 := N_1
  refine ⟨⟨(i 0).val / 5000, by omega⟩, flush1_11 _, ?_⟩
  rw [node_mem_blk]
  obtain ⟨-, -, -, -, -, -, e6, e7⟩ := node_index ⟨(i 0).val / 5000, by omega⟩
  intro a
  match a with
  | ⟨0, _⟩ =>
    show win1_11.index ⟨(i 0).val / 5000, _⟩ (0 : Fin 2) * 5000 ≤ (i 0).val
      ∧ (i 0).val < win1_11.index ⟨(i 0).val / 5000, _⟩ (0 : Fin 2) * 5000 + 5000
    rw [e6]
    show (i 0).val / 5000 * 5000 ≤ (i 0).val ∧ (i 0).val < (i 0).val / 5000 * 5000 + 5000
    omega
  | ⟨1, _⟩ =>
    show win1_11.index ⟨(i 0).val / 5000, _⟩ (1 : Fin 2) * 128 ≤ (i 1).val
      ∧ (i 1).val < win1_11.index ⟨(i 0).val / 5000, _⟩ (1 : Fin 2) * 128 + 128
    rw [e7]
    omega

/-- After the node region its output array holds the three-piece stage of the region's input arrays. -/
theorem node_array (c : Dev nD) :
    (Gen.dat1 (F := Ideal) V c).arrAt 11 cfg1.N
      = Cert.Spec.stage3 (n := 50000) (V c main_arg0) (V c main_v33) (V c main_arg3) (V c main_v35) (V c main_v37)
          (V c main_v39) (V c main_v41) (V c main_v40) (V c main_v42) (V c main_v43) (V c main_v44) :=
  (dat1 (F := Ideal) V c).arrAt_eq_of_cover 11 (nodeStage V c) (fun t _ => node_flushed V c t) node_cover

end Cert.KernelIdeal.Arrays

end
-- ==== Proof.KHost.lean ====
/-
  What the regions find in their input arrays: the host operations around the two kernel launches.

  Before the edge region the host splits the edge index into its destination row and its source
  column (a negative index wraps round by the node count), gathers the source nodes' feature rows,
  cuts the first weight matrix into its two blocks of 128 rows, recasts the bias, gain and offset
  vectors as one-row arrays and changes some float formats. Between the regions it sums the edge
  stage's rows into their destination nodes, counts each node's edges, and divides the sums by the
  counts (at least one): that aggregation is carried here as ONE function `aggOf` of the row index
  and the edge stage's output, never opened. Before the node region it cuts the second stage's
  first weight matrix into three blocks and recasts that stage's vectors.

  Each lemma reads one buffer after a stretch of operations from ANY contents `X` before it.
-/
import proofs.«103027_j21655225106535_1_alg».proof.Proof.Gen.KernelIdeal.Frame
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo

variable {F : FTy → Type} [FloatOps F]

/-! ## The shared chains, as functions -/

/-- Row 0 of the edge index, as a vector: each edge's destination node. -/
def rowIdxOf (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge index, a negative entry wrapped round by the node count, as a column of
    gather positions: each edge's source node. -/
def colIdxOf (e : (⟨S2x800000, .i32⟩ : BufTy).Contents (Elt F)) : (⟨S800000x1, .i32⟩ : BufTy).Contents (Elt F) :=
  broadcastInDim S800000x1 ![0] bcast_S800000_S800000x1_0
    (select
      (cmpi .slt
        (shapeCast S800000 (extractStridedSlice S1x800000 ![1, 0] e slices_S2x800000_S1x800000_1_0) shapeCasts_S1x800000_S800000)
        (broadcastInDim S800000 ![] bcast_S_S800000 (constantI S_ 32 0#32)))
      (addi
        (shapeCast S800000 (extractStridedSlice S1x800000 ![1, 0] e slices_S2x800000_S1x800000_1_0) shapeCasts_S1x800000_S800000)
        (broadcastInDim S800000 ![] bcast_S_S800000 (constantI S_ 32 50000#32)))
      (shapeCast S800000 (extractStridedSlice S1x800000 ![1, 0] e slices_S2x800000_S1x800000_1_0) shapeCasts_S1x800000_S800000))

/-- The mean of the edge rows arriving at each node: the rows summed into their destination nodes,
    divided by the number of edges arriving there, or by one where none does. -/
def aggOf (rowIdx : (⟨S800000, .i32⟩ : BufTy).Contents (Elt F)) (h : (⟨S800000x128, .f32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 rowIdx)
      h)
    (broadcastInDim S50000x128 ![0, 1] bcast_S50000x1_S50000x128_0_1
      (broadcastInDim S50000x1 ![0] bcast_S50000_S50000x1_0
        (maximumf
          (broadcastInDim S50000 ![] bcast_S_S50000 (constant S_ .f32 0x3F800000#32))
          (Host.scatterAdd scatter_S50000_S800000x1_S800000_n_0_0_1
            (broadcastInDim S50000 ![] bcast_S_S50000 (constant S_ .f32 0x00000000#32))
            (broadcastInDim S800000x1 ![0] bcast_S800000_S800000x1_0 rowIdx)
            (broadcastInDim S800000 ![] bcast_S_S800000 (constant S_ .f32 0x3F800000#32))))))

/-! ## Before the edge region -/

section Entry0
variable (X : Valuation τ sig (Elt F))

theorem e0_v11 : after hostOps0 X (Proc.devRef .tc main_v11)
    = Host.gather gather_S50000x128_S800000x1_S800000x128_1_0_n_n_0_1_1128
        (truncf .bf16 (X (Proc.devRef .tc main_arg0)) bitsLt_bf16_f32) (colIdxOf (X (Proc.devRef .tc main_arg1))) := by
  after_results <;> rfl
theorem e0_v12 : after hostOps0 X (Proc.devRef .tc main_v12) = truncf .bf16 (X (Proc.devRef .tc main_arg2)) bitsLt_bf16_f32 := by
  after_results <;> rfl
theorem e0_v14 : after hostOps0 X (Proc.devRef .tc main_v14)
    = truncf .bf16 (extractStridedSlice S128x128 ![0, 0] (X (Proc.devRef .tc main_arg4)) slices_S256x128_S128x128_0_0) bitsLt_bf16_f32 := by
  after_results <;> rfl
theorem e0_v16 : after hostOps0 X (Proc.devRef .tc main_v16)
    = truncf .bf16 (extractStridedSlice S128x128 ![128, 0] (X (Proc.devRef .tc main_arg4)) slices_S256x128_S128x128_128_0) bitsLt_bf16_f32 := by
  after_results <;> rfl
theorem e0_v17 : after hostOps0 X (Proc.devRef .tc main_v17) = truncf .bf16 (X (Proc.devRef .tc main_arg6)) bitsLt_bf16_f32 := by
  after_results <;> rfl
theorem e0_v18 : after hostOps0 X (Proc.devRef .tc main_v18) = shapeCast S1x128 (X (Proc.devRef .tc main_arg5)) shapeCasts_S128_S1x128 := by
  after_results <;> rfl
theorem e0_v19 : after hostOps0 X (Proc.devRef .tc main_v19) = shapeCast S1x128 (X (Proc.devRef .tc main_arg7)) shapeCasts_S128_S1x128 := by
  after_results <;> rfl
theorem e0_v20 : after hostOps0 X (Proc.devRef .tc main_v20) = shapeCast S1x128 (X (Proc.devRef .tc main_arg8)) shapeCasts_S128_S1x128 := by
  after_results <;> rfl
theorem e0_v21 : after hostOps0 X (Proc.devRef .tc main_v21) = shapeCast S1x128 (X (Proc.devRef .tc main_arg9)) shapeCasts_S128_S1x128 := by
  after_results <;> rfl
theorem e0_v1 : after hostOps0 X (Proc.devRef .tc main_v1) = rowIdxOf (X (Proc.devRef .tc main_arg1)) := by
  after_results <;> rfl
theorem e0_arg0 : after hostOps0 X (Proc.devRef .tc main_arg0) = (X (Proc.devRef .tc main_arg0)) := by
  after_results <;> rfl
theorem e0_arg3 : after hostOps0 X (Proc.devRef .tc main_arg3) = (X (Proc.devRef .tc main_arg3)) := by
  after_results <;> rfl
theorem e0_arg10 : after hostOps0 X (Proc.devRef .tc main_arg10) = (X (Proc.devRef .tc main_arg10)) := by
  after_results <;> rfl
theorem e0_arg11 : after hostOps0 X (Proc.devRef .tc main_arg11) = (X (Proc.devRef .tc main_arg11)) := by
  after_results <;> rfl
theorem e0_arg12 : after hostOps0 X (Proc.devRef .tc main_arg12) = (X (Proc.devRef .tc main_arg12)) := by
  after_results <;> rfl
theorem e0_arg13 : after hostOps0 X (Proc.devRef .tc main_arg13) = (X (Proc.devRef .tc main_arg13)) := by
  after_results <;> rfl
theorem e0_arg14 : after hostOps0 X (Proc.devRef .tc main_arg14) = (X (Proc.devRef .tc main_arg14)) := by
  after_results <;> rfl
theorem e0_arg15 : after hostOps0 X (Proc.devRef .tc main_arg15) = (X (Proc.devRef .tc main_arg15)) := by
  after_results <;> rfl

end Entry0

/-! ## Between the regions, up to the node region's entry -/

section Entry1
variable (X : Valuation τ sig (Elt F))

/-- The contents at the node region's entry, from the contents `X` at the edge region's exit. -/
abbrev entry1 : Valuation τ sig (Elt F) := after hostOps1_2 (after hostOps1_1 (after hostOps1 X))

theorem e1_v33 : entry1 X (Proc.devRef .tc main_v33) = aggOf (X (Proc.devRef .tc main_v1)) (X (Proc.devRef .tc main_v22)) := by
  after_results <;> rfl
theorem e1_arg0 : entry1 X (Proc.devRef .tc main_arg0) = (X (Proc.devRef .tc main_arg0)) := by
  after_results <;> rfl
theorem e1_arg3 : entry1 X (Proc.devRef .tc main_arg3) = (X (Proc.devRef .tc main_arg3)) := by
  after_results <;> rfl
theorem e1_v35 : entry1 X (Proc.devRef .tc main_v35)
    = truncf .bf16 (extractStridedSlice S128x128 ![0, 0] (X (Proc.devRef .tc main_arg10)) slices_S384x128_S128x128_0_0) bitsLt_bf16_f32 := by
  after_results <;> rfl
theorem e1_v37 : entry1 X (Proc.devRef .tc main_v37)
    = truncf .bf16 (extractStridedSlice S128x128 ![128, 0] (X (Proc.devRef .tc main_arg10)) slices_S384x128_S128x128_128_0) bitsLt_bf16_f32 := by
  after_results <;> rfl
theorem e1_v39 : entry1 X (Proc.devRef .tc main_v39)
    = truncf .bf16 (extractStridedSlice S128x128 ![256, 0] (X (Proc.devRef .tc main_arg10)) slices_S384x128_S128x128_256_0) bitsLt_bf16_f32 := by
  after_results <;> rfl
theorem e1_v40 : entry1 X (Proc.devRef .tc main_v40) = truncf .bf16 (X (Proc.devRef .tc main_arg12)) bitsLt_bf16_f32 := by
  after_results <;> rfl
theorem e1_v41 : entry1 X (Proc.devRef .tc main_v41) = shapeCast S1x128 (X (Proc.devRef .tc main_arg11)) shapeCasts_S128_S1x128 := by
  after_results <;> rfl
theorem e1_v42 : entry1 X (Proc.devRef .tc main_v42) = shapeCast S1x128 (X (Proc.devRef .tc main_arg13)) shapeCasts_S128_S1x128 := by
  after_results <;> rfl
theorem e1_v43 : entry1 X (Proc.devRef .tc main_v43) = shapeCast S1x128 (X (Proc.devRef .tc main_arg14)) shapeCasts_S128_S1x128 := by
  after_results <;> rfl
theorem e1_v44 : entry1 X (Proc.devRef .tc main_v44) = shapeCast S1x128 (X (Proc.devRef .tc main_arg15)) shapeCasts_S128_S1x128 := by
  after_results <;> rfl

end Entry1

end Cert.KernelIdeal.Host

end
-- ==== Proof.Bridge.lean ====
/-
  The two spellings of a stage agree.

  One program contracts each 128-wide piece of the first layer's input against its own block of
  128 rows of the weight matrix (cut out of the matrix, and with the bias, gain and offset vectors
  recast as one-row arrays); the other lays the pieces end to end and contracts once against the
  whole matrix. When the joined array IS the pieces end to end, column by column, the two stages
  are the same array: the first layers agree by splitting the long sum into the pieces' sums
  (Spec.lean), and everything after the first layer is literally the same function of it.

  A cut of rows `o … o + 127` out of a `[K, 128]` matrix reads, at `(k, j)`, the matrix at
  `(o + k, j)`; a `[128]` vector recast as `[1, 128]` reads, at `(0, j)`, the vector at `j`;
  a change of float format is the identity at the ideal instance.
-/
import proofs.«103027_j21655225106535_1_alg».proof.Proof.Spec
import Idealize.ShloMosaic.Lib.ValueLayout
import Idealize.ShloMosaic.Lib.Pipeline.Value

noncomputable section

open scoped BigOperators

namespace Cert.Bridge

open Cert.Spec Idealize.ShloMosaic Idealize.ShloMosaic.ValueIdx

/-- A `[128]` vector recast as a one-row array, read as a row, is the vector. -/
theorem row1_shapeCast (b : A1 128) (h : (⟨1, ![128]⟩ : Shape).ShapeCasts ⟨2, ![1, 128]⟩) :
    row1 (shapeCast ⟨2, ![1, 128]⟩ b h) = vec b := by
  funext j
  show shapeCast ⟨2, ![1, 128]⟩ b h (ix2 0 j) = b (ix1 j)
  exact shapeCast_apply b h (ix2 0 j) (ix1 j)
    (by rw [Shape.rowMajor_val_one, Shape.rowMajor_val_two]; show j.val = 0 * 128 + j.val; omega)

/-- Rows `o … o + 127` cut out of a `[K, 128]` matrix, as a function of row and column. -/
theorem mat_slice {K : Nat} (o : Nat) (ho : o + 128 ≤ K) (W : A2 K 128)
    (h : (⟨2, ![K, 128]⟩ : Shape).Slices ![o, 0] ⟨2, ![128, 128]⟩) :
    mat (extractStridedSlice ⟨2, ![128, 128]⟩ ![o, 0] W h) = rowsFrom o ho (mat W) := by
  funext k j
  exact slice2_axis0_apply o W h k j ⟨o + k.val, by have := k.isLt; omega⟩ rfl

/-- The two-piece stage over split weights is the joined stage over the whole matrix, when the
    joined array is the two input arrays side by side. -/
theorem stage2_eq_stageJoined {n : Nat} (xa xb : A2 n 128) (J : A2 n 256)
    (W1 : A2 256 128) (b1 : A1 128) (W2 : A2 128 128) (b2 g be : A1 128)
    (Wa Wb : A2 128 128) (b1r : A2 1 128) (W2' : A2 128 128) (b2r gr ber : A2 1 128)
    (hWa : mat Wa = rowsFrom 0 (by omega) (mat W1)) (hWb : mat Wb = rowsFrom 128 (by omega) (mat W1))
    (hb1 : row1 b1r = vec b1) (hW2 : mat W2' = mat W2)
    (hb2 : row1 b2r = vec b2) (hg : row1 gr = vec g) (hbe : row1 ber = vec be)
    (hl : ∀ (r : Fin n) (k : Fin 128), J (ix2 r ⟨k.val, by have := k.isLt; omega⟩) = xa (ix2 r k))
    (hr : ∀ (r : Fin n) (k : Fin 128), J (ix2 r ⟨128 + k.val, by have := k.isLt; omega⟩) = xb (ix2 r k)) :
    stage2 xa xb Wa Wb b1r W2' b2r gr ber = stageJoined J W1 b1 W2 b2 g be := by
  funext i
  unfold stage2 stageJoined
  rw [hWa, hWb, hb1, hW2, hb2, hg, hbe]
  exact congrArg (fun p => tail (mat W2) (vec b2) (vec g) (vec be) p (i 1))
    (linJoined_256 _ _ _ _ _ (fun k => hl (i 0) k) (fun k => hr (i 0) k)).symm

/-- The three-piece stage over split weights is the joined stage over the whole matrix, when the
    joined array is the three input arrays side by side. -/
theorem stage3_eq_stageJoined {n : Nat} (xa xb xc : A2 n 128) (J : A2 n 384)
    (W1 : A2 384 128) (b1 : A1 128) (W2 : A2 128 128) (b2 g be : A1 128)
    (Wa Wb Wc : A2 128 128) (b1r : A2 1 128) (W2' : A2 128 128) (b2r gr ber : A2 1 128)
    (hWa : mat Wa = rowsFrom 0 (by omega) (mat W1)) (hWb : mat Wb = rowsFrom 128 (by omega) (mat W1))
    (hWc : mat Wc = rowsFrom 256 (by omega) (mat W1))
    (hb1 : row1 b1r = vec b1) (hW2 : mat W2' = mat W2)
    (hb2 : row1 b2r = vec b2) (hg : row1 gr = vec g) (hbe : row1 ber = vec be)
    (h0 : ∀ (r : Fin n) (k : Fin 128), J (ix2 r ⟨k.val, by have := k.isLt; omega⟩) = xa (ix2 r k))
    (h1 : ∀ (r : Fin n) (k : Fin 128), J (ix2 r ⟨128 + k.val, by have := k.isLt; omega⟩) = xb (ix2 r k))
    (h2 : ∀ (r : Fin n) (k : Fin 128), J (ix2 r ⟨256 + k.val, by have := k.isLt; omega⟩) = xc (ix2 r k)) :
    stage3 xa xb xc Wa Wb Wc b1r W2' b2r gr ber = stageJoined J W1 b1 W2 b2 g be := by
  funext i
  unfold stage3 stageJoined
  rw [hWa, hWb, hWc, hb1, hW2, hb2, hg, hbe]
  exact congrArg (fun p => tail (mat W2) (vec b2) (vec g) (vec be) p (i 1))
    (linJoined_384 _ _ _ _ _ _ (fun k => h0 (i 0) k) (fun k => h1 (i 0) k) (fun k => h2 (i 0) k)).symm

end Cert.Bridge

end
-- ==== Proof.RefEdge.lean ====
/-
  The reference's edge stage, read as mathematics.

  The reference lays each edge's gathered source row and its edge-feature row end to end (a row of
  256), contracts it once against the whole first weight matrix, adds the bias, and goes on through
  the rectifier, the second layer and the layer normalisation. Entry by entry that is the joined
  stage of Spec.lean over the 256-wide array; and the 256-wide array, read at a column, is the
  gathered row on columns 0 … 127 and the edge-feature row on columns 128 … 255.
-/
import proofs.«103027_j21655225106535_1_alg».proof.Proof.RefRead
import proofs.«103027_j21655225106535_1_alg».proof.Proof.Spec

noncomputable section

open scoped BigOperators

namespace Cert.ReferenceIdeal.EdgeStage

open Cert.ReferenceIdeal Cert.ReferenceIdeal.ReadP Idealize.ShloMosaic Idealize.ShloMosaic.ValueIdx

/-- The joined 256-wide row on its first 128 columns is the gathered source row. -/
theorem joined_left (x0 : (⟨S50000x128, .f32⟩ : BufTy).Contents (Elt Ideal)) (x1 : (⟨S2x800000, .i32⟩ : BufTy).Contents (Elt Ideal)) (x2 : (⟨S800000x128, .f32⟩ : BufTy).Contents (Elt Ideal)) (e : Fin 800000) (k : Fin 128) :
    val_main_v11 (F := Ideal) x0 x1 x2 (ix2 e ⟨k.val, by have := k.isLt; omega⟩)
      = val_main_v10 (F := Ideal) x0 x1 (ix2 e k) := by
  unfold val_main_v11
  generalize val_main_v10 (F := Ideal) x0 x1 = y
  refine concatenate_pair_apply_left (t := S800000x256) (s₁ := S800000x128) (s₂ := S800000x128) 1 y x2 _
    (ix2 e ⟨k.val, by have := k.isLt; omega⟩) (by rfl) (ix2 e k) ?_
  intro b
  match b with
  | ⟨0, _⟩ => rfl
  | ⟨1, _⟩ => rfl

/-- The joined 256-wide row on its last 128 columns is the edge-feature row. -/
theorem joined_right (x0 : (⟨S50000x128, .f32⟩ : BufTy).Contents (Elt Ideal)) (x1 : (⟨S2x800000, .i32⟩ : BufTy).Contents (Elt Ideal)) (x2 : (⟨S800000x128, .f32⟩ : BufTy).Contents (Elt Ideal)) (e : Fin 800000) (k : Fin 128) :
    val_main_v11 (F := Ideal) x0 x1 x2 (ix2 e ⟨128 + k.val, by have := k.isLt; omega⟩) = x2 (ix2 e k) := by
  unfold val_main_v11
  generalize val_main_v10 (F := Ideal) x0 x1 = y
  refine concatenate_pair_apply_right (t := S800000x256) (s₁ := S800000x128) (s₂ := S800000x128) 1 y x2 _
    (ix2 e ⟨128 + k.val, by have := k.isLt; omega⟩) (by rfl) (by rfl) (ix2 e k) ?_ ?_
  · intro b hb
    match b, hb with
    | ⟨0, _⟩, _ => rfl
    | ⟨1, _⟩, hb => exact absurd rfl hb
  · show k.val + 128 = 128 + k.val
    omega

/-! ## The stages of one edge, as rows

  For an edge `e`, the first-layer row is the joined 256-wide row contracted against the whole first
  weight matrix plus the bias; the second-layer row is the rectified first-layer row contracted
  against the second weight matrix plus its bias. -/

/-- The first-layer row of edge `e`. -/
def pre1 (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (e : Fin 800000) : Fin 128 → EReal :=
  Cert.Spec.linJoined (fun k : Fin 256 => val_main_v11 (F := Ideal) x0 x1 x2 (ix2 e k)) (fun k j => x4 (ix2 k j)) (Cert.Spec.vec x5)

/-- The second-layer row of edge `e`. -/
def hid (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) : Fin 128 → EReal :=
  Cert.Spec.hidden (Cert.Spec.mat x6) (Cert.Spec.vec x7) (pre1 x0 x1 x2 x4 x5 e)

/-- The reference's first linear layer at entry `(e, j)`: a sum over the 256 joined columns, plus the bias. -/
theorem v15_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (e : Fin 800000) (j : Fin 128) :
    val_main_v15 (F := Ideal) x0 x1 x2 x4 x5 (ix2 e j) = pre1 x0 x1 x2 x4 x5 e j := by
  have hl : ∀ k : Fin 256, lidx_main_v12 (ix2 e j) k = ix2 e k := fun k => funext fun a => by
    match a with
    | ⟨0, _⟩ => rfl
    | ⟨1, _⟩ => rfl
  have hr : ∀ k : Fin 256, ridx_main_v12 (ix2 e j) k = ix2 k j := fun k => funext fun a => by
    match a with
    | ⟨0, _⟩ => rfl
    | ⟨1, _⟩ => rfl
  have hb : idx_main_v13 (idx_main_v14 (ix2 e j)) = ix1 j := funext fun a => by
    match a with
    | ⟨0, _⟩ => rfl
  rw [val_main_v15_apply, val_main_v12_apply, val_main_v14_apply, val_main_v13_apply, hb, Ideal.addf_def]
  unfold pre1 Cert.Spec.linJoined
  refine congrArg (· + x5 (ix1 j)) (Finset.sum_congr rfl fun k _ => ?_)
  rw [hl k, hr k]

/-- The rectified first-layer entry. -/
theorem v16_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (e : Fin 800000) (j : Fin 128) :
    val_main_v16 (F := Ideal) x0 x1 x2 x4 x5 (ix2 e j) = max (pre1 x0 x1 x2 x4 x5 e j) Cert.Spec.z32 := by
  rw [val_main_v16_apply, val_main_call0_v0_apply, val_main_call0_cst_apply, v15_at, Ideal.maximumf_def, Ideal.ofBits_def]

/-- The reference's second linear layer at entry `(e, j)`. -/
theorem v20_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (j : Fin 128) :
    val_main_v20 (F := Ideal) x0 x1 x2 x4 x5 x6 x7 (ix2 e j) = hid x0 x1 x2 x4 x5 x6 x7 e j := by
  have hl : ∀ k : Fin 128, lidx_main_v17 (ix2 e j) k = ix2 e k := fun k => funext fun a => by
    match a with
    | ⟨0, _⟩ => rfl
    | ⟨1, _⟩ => rfl
  have hr : ∀ k : Fin 128, ridx_main_v17 (ix2 e j) k = ix2 k j := fun k => funext fun a => by
    match a with
    | ⟨0, _⟩ => rfl
    | ⟨1, _⟩ => rfl
  have hb : idx_main_v18 (idx_main_v19 (ix2 e j)) = ix1 j := funext fun a => by
    match a with
    | ⟨0, _⟩ => rfl
  rw [val_main_v20_apply, val_main_v17_apply, val_main_v19_apply, val_main_v18_apply, hb, Ideal.addf_def]
  unfold hid Cert.Spec.hidden
  refine congrArg (· + x7 (ix1 j)) (Finset.sum_congr rfl fun k _ => ?_)
  rw [hl k, hr k, v16_at]

/-- A sum divided by the word of 128 is the mean of the row it sums. -/
theorem mean_of_sum (s : EReal) (v : Fin 128 → EReal) (h : s = ∑ j : Fin 128, v j) :
    Ideal.div s Cert.Spec.c128 = Cert.Spec.mean v := by
  rw [h]
  rfl

/-- The reference's row mean: the host's sum of the second-layer row, divided by the word of 128. -/
theorem v24_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (z : Fin 1) :
    val_main_v24 (F := Ideal) x0 x1 x2 x4 x5 x6 x7 (ix2 e z) = Cert.Spec.mean (hid x0 x1 x2 x4 x5 x6 x7 e) := by
  have hi : ∀ k : Fin 128, idx_main_v21 (idx_main_v22 (ix2 e z)) k = ix2 e k := fun k => funext fun a => by
    match a with
    | ⟨0, _⟩ => rfl
    | ⟨1, _⟩ => rfl
  rw [val_main_v24_apply, val_main_v22_apply, val_main_v21_apply, val_main_v23_apply, val_main_cst_1_apply,
    val_main_cst_apply, Ideal.hostDivf_def, Ideal.ofBits_def, Ideal.ofBits_def, Ideal.ofBits_zero_f32, zero_add]
  refine mean_of_sum _ _ (Finset.sum_congr rfl fun k _ => ?_)
  rw [hi k, v20_at]

/-- The centred second-layer entry, as the variance reads it. -/
theorem v26_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (j : Fin 128) :
    val_main_v26 (F := Ideal) x0 x1 x2 x4 x5 x6 x7 (ix2 e j) = hid x0 x1 x2 x4 x5 x6 x7 e j - Cert.Spec.mean (hid x0 x1 x2 x4 x5 x6 x7 e) := by
  have hi : idx_main_v25 (ix2 e j) = ix2 e (⟨0, Nat.one_pos⟩ : Fin 1) := funext fun a => by
    match a with
    | ⟨0, _⟩ => rfl
    | ⟨1, _⟩ => rfl
  rw [val_main_v26_apply, val_main_v25_apply, hi, v24_at, v20_at, Ideal.subf_def]

/-- The centred second-layer entry, as the result reads it. -/
theorem v33_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (j : Fin 128) :
    val_main_v33 (F := Ideal) x0 x1 x2 x4 x5 x6 x7 (ix2 e j) = hid x0 x1 x2 x4 x5 x6 x7 e j - Cert.Spec.mean (hid x0 x1 x2 x4 x5 x6 x7 e) := by
  have hi : idx_main_v32 (ix2 e j) = ix2 e (⟨0, Nat.one_pos⟩ : Fin 1) := funext fun a => by
    match a with
    | ⟨0, _⟩ => rfl
    | ⟨1, _⟩ => rfl
  rw [val_main_v33_apply, val_main_v32_apply, hi, v24_at, v20_at, Ideal.subf_def]

/-- The reference's row variance: the host's sum of the squared centred entries, divided by the word of 128. -/
theorem v31_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (z : Fin 1) :
    val_main_v31 (F := Ideal) x0 x1 x2 x4 x5 x6 x7 (ix2 e z)
      = Cert.Spec.mean (fun j => (hid x0 x1 x2 x4 x5 x6 x7 e j - Cert.Spec.mean (hid x0 x1 x2 x4 x5 x6 x7 e)) * (hid x0 x1 x2 x4 x5 x6 x7 e j - Cert.Spec.mean (hid x0 x1 x2 x4 x5 x6 x7 e))) := by
  have hi : ∀ k : Fin 128, idx_main_v28 (idx_main_v29 (ix2 e z)) k = ix2 e k := fun k => funext fun a => by
    match a with
    | ⟨0, _⟩ => rfl
    | ⟨1, _⟩ => rfl
  rw [val_main_v31_apply, val_main_v29_apply, val_main_v28_apply, val_main_v30_apply, val_main_cst_3_apply,
    val_main_cst_2_apply, Ideal.hostDivf_def, Ideal.ofBits_def, Ideal.ofBits_def, Ideal.ofBits_zero_f32, zero_add]
  refine mean_of_sum _ _ (Finset.sum_congr rfl fun k _ => ?_)
  rw [hi k, val_main_v27_apply, v26_at, Ideal.mulf_def]

/-- The reciprocal square root of the variance plus `ε`, broadcast along the row. -/
theorem v37_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (e : Fin 800000) (j : Fin 128) :
    val_main_v37 (F := Ideal) x0 x1 x2 x4 x5 x6 x7 (ix2 e j)
      = Ideal.rsqrt (Cert.Spec.mean (fun j => (hid x0 x1 x2 x4 x5 x6 x7 e j - Cert.Spec.mean (hid x0 x1 x2 x4 x5 x6 x7 e)) * (hid x0 x1 x2 x4 x5 x6 x7 e j - Cert.Spec.mean (hid x0 x1 x2 x4 x5 x6 x7 e))) + Cert.Spec.eps) := by
  have hi : idx_main_v37 (ix2 e j) = ix2 e (⟨0, Nat.one_pos⟩ : Fin 1) := funext fun a => by
    match a with
    | ⟨0, _⟩ => rfl
    | ⟨1, _⟩ => rfl
  rw [val_main_v37_apply, hi, val_main_v36_apply, val_main_v35_apply, val_main_v34_apply, val_main_cst_4_apply, v31_at,
    Ideal.hostUnary_rsqrt_def, Ideal.addf_def, Ideal.ofBits_def]

/-- The reference's result at entry `(e, q)`: the layer normalisation of the second-layer row. -/
theorem v44_at (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 x9 : (⟨S128, .f32⟩ : BufTy).Contents (Elt Ideal)) (e : Fin 800000) (q : Fin 128) :
    val_main_v44 (F := Ideal) x0 x1 x2 x4 x5 x6 x7 x8 x9 (ix2 e q)
      = Cert.Spec.tail (Cert.Spec.mat x6) (Cert.Spec.vec x7) (Cert.Spec.vec x8) (Cert.Spec.vec x9) (pre1 x0 x1 x2 x4 x5 e) q := by
  have hg : idx_main_v39 (idx_main_v40 (ix2 e q)) = ix1 q := funext fun a => by
    match a with
    | ⟨0, _⟩ => rfl
  have hb : idx_main_v42 (idx_main_v43 (ix2 e q)) = ix1 q := funext fun a => by
    match a with
    | ⟨0, _⟩ => rfl
  rw [val_main_v44_apply, val_main_v41_apply, val_main_v38_apply, val_main_v43_apply, val_main_v42_apply, hb,
    val_main_v40_apply, val_main_v39_apply, hg, v33_at, v37_at, Ideal.addf_def, Ideal.mulf_def, Ideal.mulf_def]
  rfl

/-- The reference's per-edge result is the joined stage of the 256-wide array and the parameters. -/
theorem edge_eq (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x4 : (⟨S256x128, .f32⟩ : BufTy).Contents (Elt Ideal)) (x5 : (⟨S128, .f32⟩ : BufTy).Contents (Elt Ideal))
    (x6 : (⟨S128x128, .f32⟩ : BufTy).Contents (Elt Ideal)) (x7 x8 x9 : (⟨S128, .f32⟩ : BufTy).Contents (Elt Ideal)) :
    val_main_v44 (F := Ideal) x0 x1 x2 x4 x5 x6 x7 x8 x9
      = Cert.Spec.stageJoined (n := 800000) (K := 256) (val_main_v11 (F := Ideal) x0 x1 x2) x4 x5 x6 x7 x8 x9 := by
  funext i
  obtain ⟨e, q, rfl⟩ : ∃ e q, i = ix2 e q := ⟨i 0, i 1, eq_ix2 i⟩
  rw [v44_at]
  rfl

end Cert.ReferenceIdeal.EdgeStage

end
-- ==== Proof.RefNode.lean ====
/-
  The reference's node stage, read as mathematics.

  The reference lays each node's feature row, its aggregated-message row and its global-feature
  row end to end (a row of 384), contracts it once against the whole first weight matrix, adds the
  bias, and goes on through the rectifier, the second layer and the layer normalisation. Entry by
  entry that is the joined stage of Spec.lean over the 384-wide array; and the 384-wide array, read
  at a column, is the node features on columns 0 … 127, the aggregated messages on columns
  128 … 255 and the global features on columns 256 … 383.
-/
import proofs.«103027_j21655225106535_1_alg».proof.Proof.RefRead
import proofs.«103027_j21655225106535_1_alg».proof.Proof.Spec

noncomputable section

open scoped BigOperators

namespace Cert.ReferenceIdeal.NodeStage

open Cert.ReferenceIdeal Cert.ReferenceIdeal.ReadP Idealize.ShloMosaic Idealize.ShloMosaic.ValueIdx

/-- The joined 384-wide row on columns 0 … 127 is the node-feature row. -/
theorem joined_0 (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S50000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (r : Fin 50000) (k : Fin 128) :
    val_main_v56 (F := Ideal) x0 x1 x2 x3 x4 x5 x6 x7 x8 x9 (ix2 r ⟨k.val, by have := k.isLt; omega⟩) = x0 (ix2 r k) := by
  unfold val_main_v56
  refine concatenate_apply_piece (t := S50000x384) 1 _ _ _ 0 (by show (0 : Nat) < 3; omega) S50000x128 x0 rfl rfl 0 rfl (ix2 r k) ?_ ?_
  · intro b hb
    match b, hb with
    | ⟨0, _⟩, _ => rfl
    | ⟨1, _⟩, hb => exact absurd rfl hb
  · show 0 + k.val = k.val
    omega

/-- The joined 384-wide row on columns 128 … 255 is the aggregated-message row. -/
theorem joined_1 (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S50000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (r : Fin 50000) (k : Fin 128) :
    val_main_v56 (F := Ideal) x0 x1 x2 x3 x4 x5 x6 x7 x8 x9 (ix2 r ⟨128 + k.val, by have := k.isLt; omega⟩)
      = val_main_v55 (F := Ideal) x0 x1 x2 x4 x5 x6 x7 x8 x9 (ix2 r k) := by
  unfold val_main_v56
  refine concatenate_apply_piece (t := S50000x384) 1 _ _ _ 1 (by show (1 : Nat) < 3; omega) S50000x128 (val_main_v55 (F := Ideal) x0 x1 x2 x4 x5 x6 x7 x8 x9) rfl rfl 128 rfl (ix2 r k) ?_ ?_
  · intro b hb
    match b, hb with
    | ⟨0, _⟩, _ => rfl
    | ⟨1, _⟩, hb => exact absurd rfl hb
  · rfl

/-- The joined 384-wide row on columns 256 … 383 is the global-feature row. -/
theorem joined_2 (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S50000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (r : Fin 50000) (k : Fin 128) :
    val_main_v56 (F := Ideal) x0 x1 x2 x3 x4 x5 x6 x7 x8 x9 (ix2 r ⟨256 + k.val, by have := k.isLt; omega⟩) = x3 (ix2 r k) := by
  unfold val_main_v56
  refine concatenate_apply_piece (t := S50000x384) 1 _ _ _ 2 (by show (2 : Nat) < 3; omega) S50000x128 x3 rfl rfl 256 rfl (ix2 r k) ?_ ?_
  · intro b hb
    match b, hb with
    | ⟨0, _⟩, _ => rfl
    | ⟨1, _⟩, hb => exact absurd rfl hb
  · rfl

/-! ## The node stage, one operation at a time

  Every array below is read at row `r`, column `j`; a `[50000, 1]` array at row `r` and its one column. -/

section Stages

variable (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S50000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S384x128, .f32⟩ : BufTy).Contents (Elt Ideal)) (x11 : (⟨S128, .f32⟩ : BufTy).Contents (Elt Ideal)) (x12 : (⟨S128x128, .f32⟩ : BufTy).Contents (Elt Ideal)) (x13 x14 x15 : (⟨S128, .f32⟩ : BufTy).Contents (Elt Ideal))

/-- The first-layer row of node `r`: its joined 384-wide row against the whole first weight matrix, plus the bias. -/
private abbrev preOne (r : Fin 50000) : Fin 128 → EReal :=
  Cert.Spec.linJoined (fun k : Fin 384 => val_main_v56 (F := Ideal) x0 x1 x2 x3 x4 x5 x6 x7 x8 x9 (ix2 r k))
    (fun k j => x10 (ix2 k j)) (Cert.Spec.vec x11)

/-- The second-layer row of node `r`: the rectified first-layer row against the second weight matrix, plus the bias. -/
private abbrev hid (r : Fin 50000) : Fin 128 → EReal :=
  Cert.Spec.hidden (Cert.Spec.mat x12) (Cert.Spec.vec x13) (preOne x0 x1 x2 x3 x4 x5 x6 x7 x8 x9 x10 x11 r)

/-- The squared deviations of the second-layer row from its mean. -/
private abbrev dev2 (r : Fin 50000) : Fin 128 → EReal :=
  fun j => (hid x0 x1 x2 x3 x4 x5 x6 x7 x8 x9 x10 x11 x12 x13 r j - Cert.Spec.mean (hid x0 x1 x2 x3 x4 x5 x6 x7 x8 x9 x10 x11 x12 x13 r)) * (hid x0 x1 x2 x3 x4 x5 x6 x7 x8 x9 x10 x11 x12 x13 r j - Cert.Spec.mean (hid x0 x1 x2 x3 x4 x5 x6 x7 x8 x9 x10 x11 x12 x13 r))

/-! ### Where each operation reads its operands -/

private theorem lidx57_eq (r : Fin 50000) (j : Fin 128) (k : Fin 384) : lidx_main_v57 (ix2 r j) k = ix2 r k := funext fun a => Fin.ext (by match a with | ⟨0, _⟩ => rfl | ⟨1, _⟩ => rfl)
private theorem ridx57_eq (r : Fin 50000) (j : Fin 128) (k : Fin 384) : ridx_main_v57 (ix2 r j) k = ix2 k j := funext fun a => Fin.ext (by match a with | ⟨0, _⟩ => rfl | ⟨1, _⟩ => rfl)
private theorem lidx62_eq (r : Fin 50000) (j : Fin 128) (k : Fin 128) : lidx_main_v62 (ix2 r j) k = ix2 r k := funext fun a => Fin.ext (by match a with | ⟨0, _⟩ => rfl | ⟨1, _⟩ => rfl)
private theorem ridx62_eq (r : Fin 50000) (j : Fin 128) (k : Fin 128) : ridx_main_v62 (ix2 r j) k = ix2 k j := funext fun a => Fin.ext (by match a with | ⟨0, _⟩ => rfl | ⟨1, _⟩ => rfl)
private theorem idx59_eq (r : Fin 50000) (j : Fin 128) : idx_main_v58 (idx_main_v59 (ix2 r j)) = ix1 j := funext fun a => Fin.ext (by match a with | ⟨0, _⟩ => rfl)
private theorem idx64_eq (r : Fin 50000) (j : Fin 128) : idx_main_v63 (idx_main_v64 (ix2 r j)) = ix1 j := funext fun a => Fin.ext (by match a with | ⟨0, _⟩ => rfl)
private theorem idx85_eq (r : Fin 50000) (j : Fin 128) : idx_main_v84 (idx_main_v85 (ix2 r j)) = ix1 j := funext fun a => Fin.ext (by match a with | ⟨0, _⟩ => rfl)
private theorem idx88_eq (r : Fin 50000) (j : Fin 128) : idx_main_v87 (idx_main_v88 (ix2 r j)) = ix1 j := funext fun a => Fin.ext (by match a with | ⟨0, _⟩ => rfl)
private theorem idx66_eq (r : Fin 50000) (z : Fin 1) (k : Fin 128) : idx_main_v66 (idx_main_v67 (ix2 r z)) k = ix2 r k := funext fun a => Fin.ext (by match a with | ⟨0, _⟩ => rfl | ⟨1, _⟩ => rfl)
private theorem idx73_eq (r : Fin 50000) (z : Fin 1) (k : Fin 128) : idx_main_v73 (idx_main_v74 (ix2 r z)) k = ix2 r k := funext fun a => Fin.ext (by match a with | ⟨0, _⟩ => rfl | ⟨1, _⟩ => rfl)
private theorem idx70_eq (r : Fin 50000) (j : Fin 128) : idx_main_v70 (ix2 r j) = ix2 r (0 : Fin 1) := funext fun a => Fin.ext (by match a with | ⟨0, _⟩ => rfl | ⟨1, _⟩ => rfl)
private theorem idx77_eq (r : Fin 50000) (j : Fin 128) : idx_main_v77 (ix2 r j) = ix2 r (0 : Fin 1) := funext fun a => Fin.ext (by match a with | ⟨0, _⟩ => rfl | ⟨1, _⟩ => rfl)
private theorem idx82_eq (r : Fin 50000) (j : Fin 128) : idx_main_v82 (ix2 r j) = ix2 r (0 : Fin 1) := funext fun a => Fin.ext (by match a with | ⟨0, _⟩ => rfl | ⟨1, _⟩ => rfl)

/-! ### The operations -/

/-- The first layer: contraction over the 384 columns, plus the bias. -/
private theorem v60_at (r : Fin 50000) (j : Fin 128) :
    val_main_v60 (F := Ideal) x0 x1 x2 x3 x4 x5 x6 x7 x8 x9 x10 x11 (ix2 r j) = preOne x0 x1 x2 x3 x4 x5 x6 x7 x8 x9 x10 x11 r j := by
  rw [val_main_v60_apply, val_main_v57_apply, val_main_v59_apply, val_main_v58_apply, idx59_eq]
  simp only [lidx57_eq, ridx57_eq]
  rfl

/-- The rectifier. -/
private theorem v61_at (r : Fin 50000) (j : Fin 128) :
    val_main_v61 (F := Ideal) x0 x1 x2 x3 x4 x5 x6 x7 x8 x9 x10 x11 (ix2 r j) = max (preOne x0 x1 x2 x3 x4 x5 x6 x7 x8 x9 x10 x11 r j) Cert.Spec.z32 := by
  rw [val_main_v61_apply, v60_at, val_main_call2_v0_apply, val_main_call2_cst_apply]
  rfl

/-- The second layer. -/
private theorem v65_at (r : Fin 50000) (j : Fin 128) :
    val_main_v65 (F := Ideal) x0 x1 x2 x3 x4 x5 x6 x7 x8 x9 x10 x11 x12 x13 (ix2 r j) = hid x0 x1 x2 x3 x4 x5 x6 x7 x8 x9 x10 x11 x12 x13 r j := by
  rw [val_main_v65_apply, val_main_v62_apply, val_main_v64_apply, val_main_v63_apply, idx64_eq]
  simp only [lidx62_eq, ridx62_eq, v61_at]
  rfl

/-- The mean of the second-layer row. -/
private theorem v69_at (r : Fin 50000) (z : Fin 1) :
    val_main_v69 (F := Ideal) x0 x1 x2 x3 x4 x5 x6 x7 x8 x9 x10 x11 x12 x13 (ix2 r z) = Cert.Spec.mean (hid x0 x1 x2 x3 x4 x5 x6 x7 x8 x9 x10 x11 x12 x13 r) := by
  rw [val_main_v69_apply, val_main_v67_apply, val_main_v66_apply, val_main_v68_apply, val_main_cst_10_apply,
    val_main_cst_9_apply]
  simp only [idx66_eq, v65_at]
  rw [Ideal.hostDivf_def, Ideal.ofBits_def, Ideal.ofBits_def, Ideal.ofBits_zero_f32, zero_add]
  rfl

/-- The deviation from the mean, squared. -/
private theorem v72_at (r : Fin 50000) (j : Fin 128) :
    val_main_v72 (F := Ideal) x0 x1 x2 x3 x4 x5 x6 x7 x8 x9 x10 x11 x12 x13 (ix2 r j) = dev2 x0 x1 x2 x3 x4 x5 x6 x7 x8 x9 x10 x11 x12 x13 r j := by
  rw [val_main_v72_apply, val_main_v71_apply, v65_at, val_main_v70_apply, idx70_eq, v69_at]
  rfl

/-- The variance of the second-layer row. -/
private theorem v76_at (r : Fin 50000) (z : Fin 1) :
    val_main_v76 (F := Ideal) x0 x1 x2 x3 x4 x5 x6 x7 x8 x9 x10 x11 x12 x13 (ix2 r z) = Cert.Spec.mean (dev2 x0 x1 x2 x3 x4 x5 x6 x7 x8 x9 x10 x11 x12 x13 r) := by
  rw [val_main_v76_apply, val_main_v74_apply, val_main_v73_apply, val_main_v75_apply, val_main_cst_12_apply,
    val_main_cst_11_apply]
  simp only [idx73_eq, v72_at]
  rw [Ideal.hostDivf_def, Ideal.ofBits_def, Ideal.ofBits_def, Ideal.ofBits_zero_f32, zero_add]
  rfl

/-- The reciprocal square root of the variance plus ε. -/
private theorem v81_at (r : Fin 50000) (z : Fin 1) :
    val_main_v81 (F := Ideal) x0 x1 x2 x3 x4 x5 x6 x7 x8 x9 x10 x11 x12 x13 (ix2 r z) = Ideal.rsqrt (Cert.Spec.mean (dev2 x0 x1 x2 x3 x4 x5 x6 x7 x8 x9 x10 x11 x12 x13 r) + Cert.Spec.eps) := by
  rw [val_main_v81_apply, val_main_v80_apply, v76_at, val_main_v79_apply, val_main_cst_13_apply]
  rfl

/-- The normalised row, scaled by the gain and shifted by the offset. -/
private theorem v89_at (r : Fin 50000) (q : Fin 128) :
    val_main_v89 (F := Ideal) x0 x1 x2 x3 x4 x5 x6 x7 x8 x9 x10 x11 x12 x13 x14 x15 (ix2 r q)
      = Cert.Spec.layerNorm (Cert.Spec.vec x14) (Cert.Spec.vec x15) (hid x0 x1 x2 x3 x4 x5 x6 x7 x8 x9 x10 x11 x12 x13 r) q := by
  rw [val_main_v89_apply, val_main_v86_apply, val_main_v83_apply, val_main_v78_apply, v65_at, val_main_v77_apply,
    idx77_eq, v69_at, val_main_v82_apply, idx82_eq, v81_at, val_main_v85_apply, val_main_v84_apply, idx85_eq,
    val_main_v88_apply, val_main_v87_apply, idx88_eq]
  rfl

end Stages

/-- The reference's result is the joined stage of the 384-wide array and the parameters. -/
theorem node_eq (x0 : (⟨S50000x128, .f32⟩ : BufTy).Contents (Elt Ideal)) (x1 : (⟨S2x800000, .i32⟩ : BufTy).Contents (Elt Ideal)) (x2 : (⟨S800000x128, .f32⟩ : BufTy).Contents (Elt Ideal)) (x3 : (⟨S50000x128, .f32⟩ : BufTy).Contents (Elt Ideal)) (x4 : (⟨S256x128, .f32⟩ : BufTy).Contents (Elt Ideal)) (x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S384x128, .f32⟩ : BufTy).Contents (Elt Ideal)) (x11 : (⟨S128, .f32⟩ : BufTy).Contents (Elt Ideal))
    (x12 : (⟨S128x128, .f32⟩ : BufTy).Contents (Elt Ideal)) (x13 x14 x15 : (⟨S128, .f32⟩ : BufTy).Contents (Elt Ideal)) :
    val_main_v89 (F := Ideal) x0 x1 x2 x3 x4 x5 x6 x7 x8 x9 x10 x11 x12 x13 x14 x15
      = Cert.Spec.stageJoined (n := 50000) (K := 384) (val_main_v56 (F := Ideal) x0 x1 x2 x3 x4 x5 x6 x7 x8 x9) x10 x11 x12 x13 x14 x15 := by
  funext i
  obtain ⟨r, q, rfl⟩ : ∃ (r : Fin 50000) (q : Fin 128), i = ix2 r q := ⟨i 0, i 1, eq_ix2 i⟩
  rw [v89_at]
  rfl

end Cert.ReferenceIdeal.NodeStage

end
-- ==== Proof.Assemble.lean ====
/-
  The idealized kernel's result is the idealized reference's last stage of the same arguments.

  Read through the launch, the kernel program's result buffer ends as the node region's output
  array; that array is the three-piece stage of what the node region finds in its input arrays;
  those are the arguments (node features, global features, weights cut in three blocks, vectors
  recast as rows) and the aggregation of the edge region's output array; and the edge region's
  output array is the two-piece stage of the gathered source rows, the edge features and the first
  stage's parameters. The reference computes the joined stages of the same data, and a joined stage
  equals the piecewise one (Bridge.lean). The gather positions and the aggregation are the same
  host operations in both programs and are carried unopened.
-/
import proofs.«103027_j21655225106535_1_alg».proof.Proof.KRun
import proofs.«103027_j21655225106535_1_alg».proof.Proof.KArr
import proofs.«103027_j21655225106535_1_alg».proof.Proof.KHost
import proofs.«103027_j21655225106535_1_alg».proof.Proof.Bridge
import proofs.«103027_j21655225106535_1_alg».proof.Proof.RefEdge
import proofs.«103027_j21655225106535_1_alg».proof.Proof.RefNode

noncomputable section

namespace Cert.Proof.Value

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg) (c : Dev nD)

/-! ## The sixteen argument arrays at launch, each at its literal type -/

abbrev a0 : (⟨S50000x128, .f32⟩ : BufTy).Contents (Elt Ideal) := m ((c.tc : Thread nD τ).loc main_arg0)
abbrev a1 : (⟨S2x800000, .i32⟩ : BufTy).Contents (Elt Ideal) := m ((c.tc : Thread nD τ).loc main_arg1)
abbrev a2 : (⟨S800000x128, .f32⟩ : BufTy).Contents (Elt Ideal) := m ((c.tc : Thread nD τ).loc main_arg2)
abbrev a3 : (⟨S50000x128, .f32⟩ : BufTy).Contents (Elt Ideal) := m ((c.tc : Thread nD τ).loc main_arg3)
abbrev a4 : (⟨S256x128, .f32⟩ : BufTy).Contents (Elt Ideal) := m ((c.tc : Thread nD τ).loc main_arg4)
abbrev a5 : (⟨S128, .f32⟩ : BufTy).Contents (Elt Ideal) := m ((c.tc : Thread nD τ).loc main_arg5)
abbrev a6 : (⟨S128x128, .f32⟩ : BufTy).Contents (Elt Ideal) := m ((c.tc : Thread nD τ).loc main_arg6)
abbrev a7 : (⟨S128, .f32⟩ : BufTy).Contents (Elt Ideal) := m ((c.tc : Thread nD τ).loc main_arg7)
abbrev a8 : (⟨S128, .f32⟩ : BufTy).Contents (Elt Ideal) := m ((c.tc : Thread nD τ).loc main_arg8)
abbrev a9 : (⟨S128, .f32⟩ : BufTy).Contents (Elt Ideal) := m ((c.tc : Thread nD τ).loc main_arg9)
abbrev a10 : (⟨S384x128, .f32⟩ : BufTy).Contents (Elt Ideal) := m ((c.tc : Thread nD τ).loc main_arg10)
abbrev a11 : (⟨S128, .f32⟩ : BufTy).Contents (Elt Ideal) := m ((c.tc : Thread nD τ).loc main_arg11)
abbrev a12 : (⟨S128x128, .f32⟩ : BufTy).Contents (Elt Ideal) := m ((c.tc : Thread nD τ).loc main_arg12)
abbrev a13 : (⟨S128, .f32⟩ : BufTy).Contents (Elt Ideal) := m ((c.tc : Thread nD τ).loc main_arg13)
abbrev a14 : (⟨S128, .f32⟩ : BufTy).Contents (Elt Ideal) := m ((c.tc : Thread nD τ).loc main_arg14)
abbrev a15 : (⟨S128, .f32⟩ : BufTy).Contents (Elt Ideal) := m ((c.tc : Thread nD τ).loc main_arg15)

/-! ## The host chains both programs share -/

/-- The reference's gather of source rows is the kernel program's: the same positions, and the
    narrowed feature array is the feature array at the ideal instance. -/
theorem gather_eq :
    Cert.ReferenceIdeal.ReadP.val_main_v10 (F := Ideal) (a0 m c) (a1 m c)
      = Host.gather gather_S50000x128_S800000x1_S800000x128_1_0_n_n_0_1_1128
          (truncf (F := Ideal) .bf16 (a0 m c) bitsLt_bf16_f32) (Cert.KernelIdeal.Host.colIdxOf (F := Ideal) (a1 m c)) := by
  unfold Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6 Cert.ReferenceIdeal.ReadP.val_main_c_0
    Cert.ReferenceIdeal.ReadP.val_main_v5 Cert.ReferenceIdeal.ReadP.val_main_v4 Cert.ReferenceIdeal.ReadP.val_main_c Cert.ReferenceIdeal.ReadP.val_main_v3 Cert.ReferenceIdeal.ReadP.val_main_v2 Cert.KernelIdeal.Host.colIdxOf
  rfl

/-- The reference's aggregation is the kernel program's, as one function of the destination rows
    and of the edge stage's output. -/
theorem agg_eq :
    (Cert.ReferenceIdeal.ReadP.val_main_v55 (F := Ideal) (a0 m c) (a1 m c) (a2 m c) (a4 m c) (a5 m c) (a6 m c) (a7 m c) (a8 m c) (a9 m c))
      = Cert.KernelIdeal.Host.aggOf (F := Ideal) (Cert.KernelIdeal.Host.rowIdxOf (F := Ideal) (a1 m c)) (Cert.ReferenceIdeal.ReadP.val_main_v44 (F := Ideal) (a0 m c) (a1 m c) (a2 m c) (a4 m c) (a5 m c) (a6 m c) (a7 m c) (a8 m c) (a9 m c)) := by
  unfold Cert.ReferenceIdeal.ReadP.val_main_v55 Cert.ReferenceIdeal.ReadP.val_main_v54 Cert.ReferenceIdeal.ReadP.val_main_v53 Cert.ReferenceIdeal.ReadP.val_main_v52 Cert.ReferenceIdeal.ReadP.val_main_call1_v1 Cert.ReferenceIdeal.ReadP.val_main_call1_v0
    Cert.ReferenceIdeal.ReadP.val_main_cst_8 Cert.ReferenceIdeal.ReadP.val_main_v51 Cert.ReferenceIdeal.ReadP.val_main_v50 Cert.ReferenceIdeal.ReadP.val_main_v49 Cert.ReferenceIdeal.ReadP.val_main_cst_7 Cert.ReferenceIdeal.ReadP.val_main_v48 Cert.ReferenceIdeal.ReadP.val_main_cst_6
    Cert.ReferenceIdeal.ReadP.val_main_v47 Cert.ReferenceIdeal.ReadP.val_main_v46 Cert.ReferenceIdeal.ReadP.val_main_v45 Cert.ReferenceIdeal.ReadP.val_main_cst_5 Cert.ReferenceIdeal.ReadP.val_main_v1 Cert.ReferenceIdeal.ReadP.val_main_v0
    Cert.KernelIdeal.Host.aggOf Cert.KernelIdeal.Host.rowIdxOf
  rfl

/-! ## The edge region's output array -/

/-- At the edge region's exit its output array holds the reference's per-edge stage. -/
theorem edge_value :
    W2 (F := Ideal) m ρ c (Proc.devRef .tc main_v22) = (Cert.ReferenceIdeal.ReadP.val_main_v44 (F := Ideal) (a0 m c) (a1 m c) (a2 m c) (a4 m c) (a5 m c) (a6 m c) (a7 m c) (a8 m c) (a9 m c)) := by
  rw [show W2 (F := Ideal) m ρ c (Proc.devRef .tc main_v22) = (dat0 (V1 m ρ) c).arrAt 9 cfg0.N from W2_arr m ρ c 9,
    Cert.KernelIdeal.Arrays.edge_array (V1 m ρ) c]
  rw [show V1 (F := Ideal) m ρ c main_v11 = _ from Cert.KernelIdeal.Host.e0_v11 (W0 m ρ c),
    show V1 (F := Ideal) m ρ c main_v12 = _ from Cert.KernelIdeal.Host.e0_v12 (W0 m ρ c),
    show V1 (F := Ideal) m ρ c main_v14 = _ from Cert.KernelIdeal.Host.e0_v14 (W0 m ρ c),
    show V1 (F := Ideal) m ρ c main_v16 = _ from Cert.KernelIdeal.Host.e0_v16 (W0 m ρ c),
    show V1 (F := Ideal) m ρ c main_v18 = _ from Cert.KernelIdeal.Host.e0_v18 (W0 m ρ c),
    show V1 (F := Ideal) m ρ c main_v17 = _ from Cert.KernelIdeal.Host.e0_v17 (W0 m ρ c),
    show V1 (F := Ideal) m ρ c main_v19 = _ from Cert.KernelIdeal.Host.e0_v19 (W0 m ρ c),
    show V1 (F := Ideal) m ρ c main_v20 = _ from Cert.KernelIdeal.Host.e0_v20 (W0 m ρ c),
    show V1 (F := Ideal) m ρ c main_v21 = _ from Cert.KernelIdeal.Host.e0_v21 (W0 m ρ c)]
  rw [Cert.ReferenceIdeal.EdgeStage.edge_eq]
  exact Cert.Bridge.stage2_eq_stageJoined _ _ (Cert.ReferenceIdeal.ReadP.val_main_v11 (F := Ideal) (a0 m c) (a1 m c) (a2 m c)) (a4 m c) (a5 m c) (a6 m c) (a7 m c) (a8 m c) (a9 m c) _ _ _ _ _ _ _
    (Cert.Bridge.mat_slice 0 (by omega) (a4 m c) slices_S256x128_S128x128_0_0)
    (Cert.Bridge.mat_slice 128 (by omega) (a4 m c) slices_S256x128_S128x128_128_0)
    (Cert.Bridge.row1_shapeCast (a5 m c) shapeCasts_S128_S1x128) rfl
    (Cert.Bridge.row1_shapeCast (a7 m c) shapeCasts_S128_S1x128)
    (Cert.Bridge.row1_shapeCast (a8 m c) shapeCasts_S128_S1x128)
    (Cert.Bridge.row1_shapeCast (a9 m c) shapeCasts_S128_S1x128)
    (fun r k => (Cert.ReferenceIdeal.EdgeStage.joined_left (a0 m c) (a1 m c) (a2 m c) r k).trans (congrFun (gather_eq m c) (ix2 r k)))
    (fun r k => Cert.ReferenceIdeal.EdgeStage.joined_right (a0 m c) (a1 m c) (a2 m c) r k)

/-! ## The node region's output array, and the result -/

/-- A buffer the edge region does not stage, and no host operation before it writes, is at the
    edge region's exit what it was at launch. -/
theorem W2_arg (b : Ref sig .tc) (hb : ∀ w, Pipeline.arrRef spec0 w ≠ b)
    (h0 : after hostOps0 (W0 (F := Ideal) m ρ c) (Proc.devRef .tc b) = W0 (F := Ideal) m ρ c (Proc.devRef .tc b)) :
    W2 (F := Ideal) m ρ c (Proc.devRef .tc b) = W0 (F := Ideal) m ρ c (Proc.devRef .tc b) :=
  (W2_of_ne m ρ c b hb).trans h0

/-- The kernel program's result buffer ends as the reference's last stage of the launch arguments. -/
theorem kernel_value :
    W6 (F := Ideal) m ρ c (Proc.devRef .tc main_v45) = (Cert.ReferenceIdeal.ReadP.val_main_v89 (F := Ideal) (a0 m c) (a1 m c) (a2 m c) (a3 m c) (a4 m c) (a5 m c) (a6 m c) (a7 m c) (a8 m c) (a9 m c) (a10 m c) (a11 m c) (a12 m c) (a13 m c) (a14 m c) (a15 m c)) := by
  rw [show W6 (F := Ideal) m ρ c (Proc.devRef .tc main_v45) = (dat1 (V5 m ρ) c).arrAt 11 cfg1.N from W6_arr m ρ c 11,
    Cert.KernelIdeal.Arrays.node_array (V5 m ρ) c]
  have hx : V5 (F := Ideal) m ρ c main_arg0 = (a0 m c) :=
    (Cert.KernelIdeal.Host.e1_arg0 (W2 m ρ c)).trans (W2_arg m ρ c main_arg0 (by decide) (Cert.KernelIdeal.Host.e0_arg0 _))
  have hu : V5 (F := Ideal) m ρ c main_arg3 = (a3 m c) :=
    (Cert.KernelIdeal.Host.e1_arg3 (W2 m ρ c)).trans (W2_arg m ρ c main_arg3 (by decide) (Cert.KernelIdeal.Host.e0_arg3 _))
  have hagg : V5 (F := Ideal) m ρ c main_v33 = (Cert.ReferenceIdeal.ReadP.val_main_v55 (F := Ideal) (a0 m c) (a1 m c) (a2 m c) (a4 m c) (a5 m c) (a6 m c) (a7 m c) (a8 m c) (a9 m c)) := by
    rw [agg_eq m c]
    refine (Cert.KernelIdeal.Host.e1_v33 (W2 m ρ c)).trans ?_
    rw [edge_value m ρ c,
      show W2 (F := Ideal) m ρ c (Proc.devRef .tc main_v1) = Cert.KernelIdeal.Host.rowIdxOf (F := Ideal) (a1 m c) from
        (W2_of_ne m ρ c main_v1 (by decide)).trans (Cert.KernelIdeal.Host.e0_v1 (W0 m ρ c))]
  have h35 : V5 (F := Ideal) m ρ c main_v35 = truncf (F := Ideal) .bf16 (extractStridedSlice S128x128 ![0, 0] (a10 m c) slices_S384x128_S128x128_0_0) bitsLt_bf16_f32 := by
    refine (Cert.KernelIdeal.Host.e1_v35 (W2 m ρ c)).trans ?_
    rw [W2_arg m ρ c main_arg10 (by decide) (Cert.KernelIdeal.Host.e0_arg10 _)]
  have h37 : V5 (F := Ideal) m ρ c main_v37 = truncf (F := Ideal) .bf16 (extractStridedSlice S128x128 ![128, 0] (a10 m c) slices_S384x128_S128x128_128_0) bitsLt_bf16_f32 := by
    refine (Cert.KernelIdeal.Host.e1_v37 (W2 m ρ c)).trans ?_
    rw [W2_arg m ρ c main_arg10 (by decide) (Cert.KernelIdeal.Host.e0_arg10 _)]
  have h39 : V5 (F := Ideal) m ρ c main_v39 = truncf (F := Ideal) .bf16 (extractStridedSlice S128x128 ![256, 0] (a10 m c) slices_S384x128_S128x128_256_0) bitsLt_bf16_f32 := by
    refine (Cert.KernelIdeal.Host.e1_v39 (W2 m ρ c)).trans ?_
    rw [W2_arg m ρ c main_arg10 (by decide) (Cert.KernelIdeal.Host.e0_arg10 _)]
  have h41 : V5 (F := Ideal) m ρ c main_v41 = shapeCast S1x128 (a11 m c) shapeCasts_S128_S1x128 := by
    refine (Cert.KernelIdeal.Host.e1_v41 (W2 m ρ c)).trans ?_
    rw [W2_arg m ρ c main_arg11 (by decide) (Cert.KernelIdeal.Host.e0_arg11 _)]
  have h40 : V5 (F := Ideal) m ρ c main_v40 = truncf (F := Ideal) .bf16 (a12 m c) bitsLt_bf16_f32 := by
    refine (Cert.KernelIdeal.Host.e1_v40 (W2 m ρ c)).trans ?_
    rw [W2_arg m ρ c main_arg12 (by decide) (Cert.KernelIdeal.Host.e0_arg12 _)]
  have h42 : V5 (F := Ideal) m ρ c main_v42 = shapeCast S1x128 (a13 m c) shapeCasts_S128_S1x128 := by
    refine (Cert.KernelIdeal.Host.e1_v42 (W2 m ρ c)).trans ?_
    rw [W2_arg m ρ c main_arg13 (by decide) (Cert.KernelIdeal.Host.e0_arg13 _)]
  have h43 : V5 (F := Ideal) m ρ c main_v43 = shapeCast S1x128 (a14 m c) shapeCasts_S128_S1x128 := by
    refine (Cert.KernelIdeal.Host.e1_v43 (W2 m ρ c)).trans ?_
    rw [W2_arg m ρ c main_arg14 (by decide) (Cert.KernelIdeal.Host.e0_arg14 _)]
  have h44 : V5 (F := Ideal) m ρ c main_v44 = shapeCast S1x128 (a15 m c) shapeCasts_S128_S1x128 := by
    refine (Cert.KernelIdeal.Host.e1_v44 (W2 m ρ c)).trans ?_
    rw [W2_arg m ρ c main_arg15 (by decide) (Cert.KernelIdeal.Host.e0_arg15 _)]
  rw [hx, hu, hagg, h35, h37, h39, h41, h40, h42, h43, h44, Cert.ReferenceIdeal.NodeStage.node_eq]
  exact Cert.Bridge.stage3_eq_stageJoined _ _ _ (Cert.ReferenceIdeal.ReadP.val_main_v56 (F := Ideal) (a0 m c) (a1 m c) (a2 m c) (a3 m c) (a4 m c) (a5 m c) (a6 m c) (a7 m c) (a8 m c) (a9 m c)) (a10 m c) (a11 m c) (a12 m c) (a13 m c) (a14 m c) (a15 m c) _ _ _ _ _ _ _ _
    (Cert.Bridge.mat_slice 0 (by omega) (a10 m c) slices_S384x128_S128x128_0_0)
    (Cert.Bridge.mat_slice 128 (by omega) (a10 m c) slices_S384x128_S128x128_128_0)
    (Cert.Bridge.mat_slice 256 (by omega) (a10 m c) slices_S384x128_S128x128_256_0)
    (Cert.Bridge.row1_shapeCast (a11 m c) shapeCasts_S128_S1x128) rfl
    (Cert.Bridge.row1_shapeCast (a13 m c) shapeCasts_S128_S1x128)
    (Cert.Bridge.row1_shapeCast (a14 m c) shapeCasts_S128_S1x128)
    (Cert.Bridge.row1_shapeCast (a15 m c) shapeCasts_S128_S1x128)
    (fun r k => Cert.ReferenceIdeal.NodeStage.joined_0 (a0 m c) (a1 m c) (a2 m c) (a3 m c) (a4 m c) (a5 m c) (a6 m c) (a7 m c) (a8 m c) (a9 m c) r k)
    (fun r k => Cert.ReferenceIdeal.NodeStage.joined_1 (a0 m c) (a1 m c) (a2 m c) (a3 m c) (a4 m c) (a5 m c) (a6 m c) (a7 m c) (a8 m c) (a9 m c) r k)
    (fun r k => Cert.ReferenceIdeal.NodeStage.joined_2 (a0 m c) (a1 m c) (a2 m c) (a3 m c) (a4 m c) (a5 m c) (a6 m c) (a7 m c) (a8 m c) (a9 m c) r k)

end Cert.Proof.Value

end
-- ==== Proof.lean ====
/-
  The certificate of one message-passing layer: a per-edge perceptron with layer normalisation over
  the gathered source features and the edge features, the mean of its rows over each node's incoming
  edges, and a per-node perceptron with layer normalisation over the node's features, that mean and
  the global features.

  The kernel program runs the two perceptrons as two blocked kernels, contracting each 128-wide
  piece of a first layer's input against its own block of the weights; the reference lays the pieces
  end to end and contracts once. Over the extended reals the two first layers agree because a sum
  over the long row is the sum of the pieces' sums (Proof/Spec.lean, Proof/Bridge.lean); everything
  else is the same function on both sides (format changes are the identity at the ideal instance;
  the gather, the scatter-sum and the division by the clipped counts are the same host operations,
  carried unopened). No finiteness of the inputs is used.

  frame_Kernel, frame_KernelIdeal: the generated frames of the two-region program.
  frame_ReferenceIdeal: the reference's run (Proof/RefRun.lean) with the result dropped.
  preserves_Kernel_KernelIdeal: the idealization rewrote nothing.
  algebraic_KernelIdeal_ReferenceIdeal: the kernel program's run with its result named
  (Proof/KRun.lean) ends at the node region's output array, which is the reference's last stage of
  the arguments (Proof/Assemble.lean); the reference's run ends at that stage of arguments that agree.
-/
import proofs.«103027_j21655225106535_1_alg».proof.Defs
import proofs.«103027_j21655225106535_1_alg».proof.Proof.Gen.Kernel
import proofs.«103027_j21655225106535_1_alg».proof.Proof.Gen.Kernel.Frame
import proofs.«103027_j21655225106535_1_alg».proof.Proof.Gen.KernelIdeal
import proofs.«103027_j21655225106535_1_alg».proof.Proof.Gen.KernelIdeal.Frame
import proofs.«103027_j21655225106535_1_alg».proof.Proof.Gen.ReferenceIdeal
import proofs.«103027_j21655225106535_1_alg».proof.Proof.Gen.Pre_finite_inputs
import proofs.«103027_j21655225106535_1_alg».proof.Proof.KRun
import proofs.«103027_j21655225106535_1_alg».proof.Proof.RefRun
import proofs.«103027_j21655225106535_1_alg».proof.Proof.Assemble
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both programs end with the reference's last stage of the kernel program's launch arguments in
    their result buffers. -/
theorem algebraic : Cert.algebraic_KernelIdeal_ReferenceIdeal := by
  intro m ρ m' ρ' _ hagree
  refine ⟨fun c => Cert.ReferenceIdeal.ReadP.val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.Proof.Value.kernel_value m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
